-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x3 : Shape := ⟨2, ![131072, 3]⟩
abbrev S3x64 : Shape := ⟨2, ![3, 64]⟩
abbrev S1x64 : Shape := ⟨2, ![1, 64]⟩
abbrev S64x128 : Shape := ⟨2, ![64, 128]⟩
abbrev S1x128 : Shape := ⟨2, ![1, 128]⟩
abbrev S128x256 : Shape := ⟨2, ![128, 256]⟩
abbrev S1x256 : Shape := ⟨2, ![1, 256]⟩
abbrev S256x512 : Shape := ⟨2, ![256, 512]⟩
abbrev S1x512 : Shape := ⟨2, ![1, 512]⟩
abbrev S512x1024 : Shape := ⟨2, ![512, 1024]⟩
abbrev S1x1024 : Shape := ⟨2, ![1, 1024]⟩
abbrev S1024x1 : Shape := ⟨2, ![1024, 1]⟩
abbrev S1x1 : Shape := ⟨2, ![1, 1]⟩
abbrev S_ : Shape := ⟨0, ![]⟩

class Facts : Prop where
  bcast_S_S131072x3 : S_.BroadcastsInDim S131072x3 (![] : Fin 0 → Fin S131072x3.rank)
  reducesTo_S131072x3_S_d0_1 : S131072x3.ReducesTo [0, 1] S_
  h_S_ : 0 < S_.numel
  bcast_S_S3x64 : S_.BroadcastsInDim S3x64 (![] : Fin 0 → Fin S3x64.rank)
  reducesTo_S3x64_S_d0_1 : S3x64.ReducesTo [0, 1] S_
  bcast_S_S1x64 : S_.BroadcastsInDim S1x64 (![] : Fin 0 → Fin S1x64.rank)
  reducesTo_S1x64_S_d0_1 : S1x64.ReducesTo [0, 1] S_
  bcast_S_S64x128 : S_.BroadcastsInDim S64x128 (![] : Fin 0 → Fin S64x128.rank)
  reducesTo_S64x128_S_d0_1 : S64x128.ReducesTo [0, 1] S_
  bcast_S_S1x128 : S_.BroadcastsInDim S1x128 (![] : Fin 0 → Fin S1x128.rank)
  reducesTo_S1x128_S_d0_1 : S1x128.ReducesTo [0, 1] S_
  bcast_S_S128x256 : S_.BroadcastsInDim S128x256 (![] : Fin 0 → Fin S128x256.rank)
  reducesTo_S128x256_S_d0_1 : S128x256.ReducesTo [0, 1] S_
  bcast_S_S1x256 : S_.BroadcastsInDim S1x256 (![] : Fin 0 → Fin S1x256.rank)
  reducesTo_S1x256_S_d0_1 : S1x256.ReducesTo [0, 1] S_
  bcast_S_S256x512 : S_.BroadcastsInDim S256x512 (![] : Fin 0 → Fin S256x512.rank)
  reducesTo_S256x512_S_d0_1 : S256x512.ReducesTo [0, 1] S_
  bcast_S_S1x512 : S_.BroadcastsInDim S1x512 (![] : Fin 0 → Fin S1x512.rank)
  reducesTo_S1x512_S_d0_1 : S1x512.ReducesTo [0, 1] S_
  bcast_S_S512x1024 : S_.BroadcastsInDim S512x1024 (![] : Fin 0 → Fin S512x1024.rank)
  reducesTo_S512x1024_S_d0_1 : S512x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x1 : S_.BroadcastsInDim S1024x1 (![] : Fin 0 → Fin S1024x1.rank)
  reducesTo_S1024x1_S_d0_1 : S1024x1.ReducesTo [0, 1] S_
  bcast_S_S1x1 : S_.BroadcastsInDim S1x1 (![] : Fin 0 → Fin S1x1.rank)
  reducesTo_S1x1_S_d0_1 : S1x1.ReducesTo [0, 1] S_

variable [Facts]

def fn_part3 {F : FTy → Type} [FloatOps F] (main_arg11 : FVec F S1024x1 .f32) (main_arg12 : FVec F S1x1 .f32) (main_v48 : IVec S_ 1) (main_v49 : FVec F S1x1024 .f32) (main_v50 : FVec F S1x1024 .f32) : IVec S_ 1 :=
  let main_v51 : IVec S1x1024 1 := cmpf .olt main_v49 main_v50
  let main_c_19 : IVec S_ 1 := constantI S_ 1 1#1
  let main_v52 : IVec S_ 1 := (fun x v => Host.reduce IntOp.andi x v reducesTo_S1x1024_S_d0_1 h_S_) main_v51 main_c_19
  let main_v53 : IVec S_ 1 := andi main_v48 main_v52
  let main_v54 : FVec F S1024x1 .f32 := Host.absf main_arg11
  let main_cst_20 : FVec F S_ .f32 := constant S_ .f32 0x7F800000#32
  let main_v55 : FVec F S1024x1 .f32 := broadcastInDim S1024x1 ![] bcast_S_S1024x1 main_cst_20
  let main_v56 : IVec S1024x1 1 := cmpf .olt main_v54 main_v55
  let main_c_21 : IVec S_ 1 := constantI S_ 1 1#1
  let main_v57 : IVec S_ 1 := (fun x v => Host.reduce IntOp.andi x v reducesTo_S1024x1_S_d0_1 h_S_) main_v56 main_c_21
  let main_v58 : IVec S_ 1 := andi main_v53 main_v57
  let main_v59 : FVec F S1x1 .f32 := Host.absf main_arg12
  let main_cst_22 : FVec F S_ .f32 := constant S_ .f32 0x7F800000#32
  let main_v60 : FVec F S1x1 .f32 := broadcastInDim S1x1 ![] bcast_S_S1x1 main_cst_22
  let main_v61 : IVec S1x1 1 := cmpf .olt main_v59 main_v60
  let main_c_23 : IVec S_ 1 := constantI S_ 1 1#1
  let main_v62 : IVec S_ 1 := (fun x v => Host.reduce IntOp.andi x v reducesTo_S1x1_S_d0_1 h_S_) main_v61 main_c_23
  let main_v63 : IVec S_ 1 := andi main_v58 main_v62
  main_v63

def fn_part2 {F : FTy → Type} [FloatOps F] (main_arg7 : FVec F S256x512 .f32) (main_arg8 : FVec F S1x512 .f32) (main_arg9 : FVec F S512x1024 .f32) (main_arg10 : FVec F S1x1024 .f32) (main_arg11 : FVec F S1024x1 .f32) (main_arg12 : FVec F S1x1 .f32) (main_v33 : IVec S_ 1) : IVec S_ 1 :=
  let main_v34 : FVec F S256x512 .f32 := Host.absf main_arg7
  let main_cst_12 : FVec F S_ .f32 := constant S_ .f32 0x7F800000#32
  let main_v35 : FVec F S256x512 .f32 := broadcastInDim S256x512 ![] bcast_S_S256x512 main_cst_12
  let main_v36 : IVec S256x512 1 := cmpf .olt main_v34 main_v35
  let main_c_13 : IVec S_ 1 := constantI S_ 1 1#1
  let main_v37 : IVec S_ 1 := (fun x v => Host.reduce IntOp.andi x v reducesTo_S256x512_S_d0_1 h_S_) main_v36 main_c_13
  let main_v38 : IVec S_ 1 := andi main_v33 main_v37
  let main_v39 : FVec F S1x512 .f32 := Host.absf main_arg8
  let main_cst_14 : FVec F S_ .f32 := constant S_ .f32 0x7F800000#32
  let main_v40 : FVec F S1x512 .f32 := broadcastInDim S1x512 ![] bcast_S_S1x512 main_cst_14
  let main_v41 : IVec S1x512 1 := cmpf .olt main_v39 main_v40
  let main_c_15 : IVec S_ 1 := constantI S_ 1 1#1
  let main_v42 : IVec S_ 1 := (fun x v => Host.reduce IntOp.andi x v reducesTo_S1x512_S_d0_1 h_S_) main_v41 main_c_15
  let main_v43 : IVec S_ 1 := andi main_v38 main_v42
  let main_v44 : FVec F S512x1024 .f32 := Host.absf main_arg9
  let main_cst_16 : FVec F S_ .f32 := constant S_ .f32 0x7F800000#32
  let main_v45 : FVec F S512x1024 .f32 := broadcastInDim S512x1024 ![] bcast_S_S512x1024 main_cst_16
  let main_v46 : IVec S512x1024 1 := cmpf .olt main_v44 main_v45
  let main_c_17 : IVec S_ 1 := constantI S_ 1 1#1
  let main_v47 : IVec S_ 1 := (fun x v => Host.reduce IntOp.andi x v reducesTo_S512x1024_S_d0_1 h_S_) main_v46 main_c_17
  let main_v48 : IVec S_ 1 := andi main_v43 main_v47
  let main_v49 : FVec F S1x1024 .f32 := Host.absf main_arg10
  let main_cst_18 : FVec F S_ .f32 := constant S_ .f32 0x7F800000#32
  let main_v50 : FVec F S1x1024 .f32 := broadcastInDim S1x1024 ![] bcast_S_S1x1024 main_cst_18
  fn_part3 (F := F) main_arg11 main_arg12 main_v48 main_v49 main_v50

def fn_part1 {F : FTy → Type} [FloatOps F] (main_arg4 : FVec F S1x128 .f32) (main_arg5 : FVec F S128x256 .f32) (main_arg6 : FVec F S1x256 .f32) (main_arg7 : FVec F S256x512 .f32) (main_arg8 : FVec F S1x512 .f32) (main_arg9 : FVec F S512x1024 .f32) (main_arg10 : FVec F S1x1024 .f32) (main_arg11 : FVec F S1024x1 .f32) (main_arg12 : FVec F S1x1 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S1x128 .f32 := Host.absf main_arg4
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S1x256 .f32 := Host.absf main_arg6
  let main_cst_10 : FVec F S_ .f32 := constant S_ .f32 0x7F800000#32
  let main_v30 : FVec F S1x256 .f32 := broadcastInDim S1x256 ![] bcast_S_S1x256 main_cst_10
  let main_v31 : IVec S1x256 1 := cmpf .olt main_v29 main_v30
  let main_c_11 : IVec S_ 1 := constantI S_ 1 1#1
  let main_v32 : IVec S_ 1 := (fun x v => Host.reduce IntOp.andi x v reducesTo_S1x256_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S131072x3 .f32) (main_arg1 : FVec F S3x64 .f32) (main_arg2 : FVec F S1x64 .f32) (main_arg3 : FVec F S64x128 .f32) (main_arg4 : FVec F S1x128 .f32) (main_arg5 : FVec F S128x256 .f32) (main_arg6 : FVec F S1x256 .f32) (main_arg7 : FVec F S256x512 .f32) (main_arg8 : FVec F S1x512 .f32) (main_arg9 : FVec F S512x1024 .f32) (main_arg10 : FVec F S1x1024 .f32) (main_arg11 : FVec F S1024x1 .f32) (main_arg12 : FVec F S1x1 .f32) : IVec S_ 1 :=
  let main_v0 : FVec F S131072x3 .f32 := Host.absf main_arg0
  let main_cst : FVec F S_ .f32 := constant S_ .f32 0x7F800000#32
  let main_v1 : FVec F S131072x3 .f32 := broadcastInDim S131072x3 ![] bcast_S_S131072x3 main_cst
  let main_v2 : IVec S131072x3 1 := cmpf .olt main_v0 main_v1
  let main_c : IVec S_ 1 := constantI S_ 1 1#1
  let main_v3 : IVec S_ 1 := (fun x v => Host.reduce IntOp.andi x v reducesTo_S131072x3_S_d0_1 h_S_) main_v2 main_c
  let main_v4 : FVec F S3x64 .f32 := Host.absf main_arg1
  let main_cst_0 : FVec F S_ .f32 := constant S_ .f32 0x7F800000#32
  let main_v5 : FVec F S3x64 .f32 := broadcastInDim S3x64 ![] bcast_S_S3x64 main_cst_0
  let main_v6 : IVec S3x64 1 := cmpf .olt main_v4 main_v5
  let main_c_1 : IVec S_ 1 := constantI S_ 1 1#1
  let main_v7 : IVec S_ 1 := (fun x v => Host.reduce IntOp.andi x v reducesTo_S3x64_S_d0_1 h_S_) main_v6 main_c_1
  let main_v8 : IVec S_ 1 := andi main_v3 main_v7
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg4 main_arg5 main_arg6 main_arg7 main_arg8 main_arg9 main_arg10 main_arg11 main_arg12 main_v13 main_v16
-- ==== Kernel.lean ====
abbrev S131072x3 : Shape := ⟨2, ![131072, 3]⟩
abbrev S3x64 : Shape := ⟨2, ![3, 64]⟩
abbrev S1x64 : Shape := ⟨2, ![1, 64]⟩
abbrev S64x128 : Shape := ⟨2, ![64, 128]⟩
abbrev S1x128 : Shape := ⟨2, ![1, 128]⟩
abbrev S128x256 : Shape := ⟨2, ![128, 256]⟩
abbrev S1x256 : Shape := ⟨2, ![1, 256]⟩
abbrev S256x512 : Shape := ⟨2, ![256, 512]⟩
abbrev S1x512 : Shape := ⟨2, ![1, 512]⟩
abbrev S512x1024 : Shape := ⟨2, ![512, 1024]⟩
abbrev S1x1024 : Shape := ⟨2, ![1, 1024]⟩
abbrev S1024x1 : Shape := ⟨2, ![1024, 1]⟩
abbrev S1x1 : Shape := ⟨2, ![1, 1]⟩
abbrev S2x2 : Shape := ⟨2, ![2, 2]⟩
abbrev S_ : Shape := ⟨0, ![]⟩
abbrev S2x1x2x1 : Shape := ⟨4, ![2, 1, 2, 1]⟩
abbrev S1x64x1x128 : Shape := ⟨4, ![1, 64, 1, 128]⟩
abbrev S2x64x2x128 : Shape := ⟨4, ![2, 64, 2, 128]⟩
abbrev S4x4 : Shape := ⟨2, ![4, 4]⟩
abbrev S4x1x4x1 : Shape := ⟨4, ![4, 1, 4, 1]⟩
abbrev S4x64x4x128 : Shape := ⟨4, ![4, 64, 4, 128]⟩
abbrev S8x8 : Shape := ⟨2, ![8, 8]⟩
abbrev S8x1x8x1 : Shape := ⟨4, ![8, 1, 8, 1]⟩
abbrev S8x64x8x128 : Shape := ⟨4, ![8, 64, 8, 128]⟩
abbrev S131072x1 : Shape := ⟨2, ![131072, 1]⟩
abbrev S1024x3 : Shape := ⟨2, ![1024, 3]⟩
abbrev S1024x64 : Shape := ⟨2, ![1024, 64]⟩
abbrev S1024x128 : Shape := ⟨2, ![1024, 128]⟩
abbrev S1024x256 : Shape := ⟨2, ![1024, 256]⟩
abbrev S1024x512 : Shape := ⟨2, ![1024, 512]⟩
abbrev S1024x1024 : Shape := ⟨2, ![1024, 1024]⟩

abbrev nBuf : Space → Nat
  | .hbm => 68
  | .vmem => 16
  | .smem => 0
  | _ => 0

abbrev bufTy : (tb : Table) → Fin (tcTables nBuf tb) → BufTy
  | .hbm, ⟨0, _⟩ => ⟨S131072x3, .f32⟩
  | .hbm, ⟨1, _⟩ => ⟨S3x64, .f32⟩
  | .hbm, ⟨2, _⟩ => ⟨S1x64, .f32⟩
  | .hbm, ⟨3, _⟩ => ⟨S64x128, .f32⟩
  | .hbm, ⟨4, _⟩ => ⟨S1x128, .f32⟩
  | .hbm, ⟨5, _⟩ => ⟨S128x256, .f32⟩
  | .hbm, ⟨6, _⟩ => ⟨S1x256, .f32⟩
  | .hbm, ⟨7, _⟩ => ⟨S256x512, .f32⟩
  | .hbm, ⟨8, _⟩ => ⟨S1x512, .f32⟩
  | .hbm, ⟨9, _⟩ => ⟨S512x1024, .f32⟩
  | .hbm, ⟨10, _⟩ => ⟨S1x1024, .f32⟩
  | .hbm, ⟨11, _⟩ => ⟨S1024x1, .f32⟩
  | .hbm, ⟨12, _⟩ => ⟨S1x1, .f32⟩
  | .hbm, ⟨13, _⟩ => ⟨S2x2, .i32⟩
  | .hbm, ⟨14, _⟩ => ⟨S2x2, .i32⟩
  | .hbm, ⟨15, _⟩ => ⟨S_, .i32⟩
  | .hbm, ⟨16, _⟩ => ⟨S2x2, .i32⟩
  | .hbm, ⟨17, _⟩ => ⟨S2x2, .i32⟩
  | .hbm, ⟨18, _⟩ => ⟨S2x2, .i1⟩
  | .hbm, ⟨19, _⟩ => ⟨S2x2, .f32⟩
  | .hbm, ⟨20, _⟩ => ⟨S_, .f32⟩
  | .hbm, ⟨21, _⟩ => ⟨S64x128, .f32⟩
  | .hbm, ⟨22, _⟩ => ⟨S2x1x2x1, .f32⟩
  | .hbm, ⟨23, _⟩ => ⟨S1x64x1x128, .f32⟩
  | .hbm, ⟨24, _⟩ => ⟨S2x64x2x128, .f32⟩
  | .hbm, ⟨25, _⟩ => ⟨S2x64x2x128, .f32⟩
  | .hbm, ⟨26, _⟩ => ⟨S2x64x2x128, .f32⟩
  | .hbm, ⟨27, _⟩ => ⟨S128x256, .f32⟩
  | .hbm, ⟨28, _⟩ => ⟨S4x4, .i32⟩
  | .hbm, ⟨29, _⟩ => ⟨S4x4, .i32⟩
  | .hbm, ⟨30, _⟩ => ⟨S_, .i32⟩
  | .hbm, ⟨31, _⟩ => ⟨S4x4, .i32⟩
  | .hbm, ⟨32, _⟩ => ⟨S4x4, .i32⟩
  | .hbm, ⟨33, _⟩ => ⟨S4x4, .i1⟩
  | .hbm, ⟨34, _⟩ => ⟨S4x4, .f32⟩
  | .hbm, ⟨35, _⟩ => ⟨S_, .f32⟩
  | .hbm, ⟨36, _⟩ => ⟨S64x128, .f32⟩
  | .hbm, ⟨37, _⟩ => ⟨S4x1x4x1, .f32⟩
  | .hbm, ⟨38, _⟩ => ⟨S1x64x1x128, .f32⟩
  | .hbm, ⟨39, _⟩ => ⟨S4x64x4x128, .f32⟩
  | .hbm, ⟨40, _⟩ => ⟨S4x64x4x128, .f32⟩
  | .hbm, ⟨41, _⟩ => ⟨S4x64x4x128, .f32⟩
  | .hbm, ⟨42, _⟩ => ⟨S256x512, .f32⟩
  | .hbm, ⟨43, _⟩ => ⟨S8x8, .i32⟩
  | .hbm, ⟨44, _⟩ => ⟨S8x8, .i32⟩
  | .hbm, ⟨45, _⟩ => ⟨S_, .i32⟩
  | .hbm, ⟨46, _⟩ => ⟨S8x8, .i32⟩
  | .hbm, ⟨47, _⟩ => ⟨S8x8, .i32⟩
  | .hbm, ⟨48, _⟩ => ⟨S8x8, .i1⟩
  | .hbm, ⟨49, _⟩ => ⟨S8x8, .f32⟩
  | .hbm, ⟨50, _⟩ => ⟨S_, .f32⟩
  | .hbm, ⟨51, _⟩ => ⟨S64x128, .f32⟩
  | .hbm, ⟨52, _⟩ => ⟨S8x1x8x1, .f32⟩
  | .hbm, ⟨53, _⟩ => ⟨S1x64x1x128, .f32⟩
  | .hbm, ⟨54, _⟩ => ⟨S8x64x8x128, .f32⟩
  | .hbm, ⟨55, _⟩ => ⟨S8x64x8x128, .f32⟩
  | .hbm, ⟨56, _⟩ => ⟨S8x64x8x128, .f32⟩
  | .hbm, ⟨57, _⟩ => ⟨S512x1024, .f32⟩
  | .hbm, ⟨58, _⟩ => ⟨S3x64, .bf16⟩
  | .hbm, ⟨59, _⟩ => ⟨S64x128, .bf16⟩
  | .hbm, ⟨60, _⟩ => ⟨S128x256, .f32⟩
  | .hbm, ⟨61, _⟩ => ⟨S128x256, .bf16⟩
  | .hbm, ⟨62, _⟩ => ⟨S256x512, .f32⟩
  | .hbm, ⟨63, _⟩ => ⟨S256x512, .bf16⟩
  | .hbm, ⟨64, _⟩ => ⟨S512x1024, .f32⟩
  | .hbm, ⟨65, _⟩ => ⟨S512x1024, .bf16⟩
  | .hbm, ⟨66, _⟩ => ⟨S1024x1, .bf16⟩
  | .hbm, ⟨67, _⟩ => ⟨S131072x1, .f32⟩
  | .local _ .vmem, ⟨0, _⟩ => ⟨S1024x3, .f32⟩
  | .local _ .vmem, ⟨1, _⟩ => ⟨S1024x3, .f32⟩
  | .local _ .vmem, ⟨2, _⟩ => ⟨S3x64, .bf16⟩
  | .local _ .vmem, ⟨3, _⟩ => ⟨S1x64, .f32⟩
  | .local _ .vmem, ⟨4, _⟩ => ⟨S64x128, .bf16⟩
  | .local _ .vmem, ⟨5, _⟩ => ⟨S1x128, .f32⟩
  | .local _ .vmem, ⟨6, _⟩ => ⟨S128x256, .bf16⟩
  | .local _ .vmem, ⟨7, _⟩ => ⟨S1x256, .f32⟩
  | .local _ .vmem, ⟨8, _⟩ => ⟨S256x512, .bf16⟩
  | .local _ .vmem, ⟨9, _⟩ => ⟨S1x512, .f32⟩
  | .local _ .vmem, ⟨10, _⟩ => ⟨S512x1024, .bf16⟩
  | .local _ .vmem, ⟨11, _⟩ => ⟨S1x1024, .f32⟩
  | .local _ .vmem, ⟨12, _⟩ => ⟨S1024x1, .bf16⟩
  | .local _ .vmem, ⟨13, _⟩ => ⟨S1x1, .f32⟩
  | .local _ .vmem, ⟨14, _⟩ => ⟨S1024x1, .f32⟩
  | .local _ .vmem, ⟨15, _⟩ => ⟨S1024x1, .f32⟩
  | _, _ => ⟨S131072x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_c_0 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_1 : Ref sig .tc := ⟨.hbm, 35, rfl⟩
abbrev main_v14 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_c_2 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst_3 : Ref sig .tc := ⟨.hbm, 50, rfl⟩
abbrev main_v22 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  bcast_S_S2x2 : S_.BroadcastsInDim S2x2 (![] : Fin 0 → Fin S2x2.rank)
  bcast_S_S64x128 : S_.BroadcastsInDim S64x128 (![] : Fin 0 → Fin S64x128.rank)
  bcast_S2x2_S2x1x2x1_0_2 : S2x2.BroadcastsInDim S2x1x2x1 (![0, 2] : Fin 2 → Fin S2x1x2x1.rank)
  bcast_S64x128_S1x64x1x128_1_3 : S64x128.BroadcastsInDim S1x64x1x128 (![1, 3] : Fin 2 → Fin S1x64x1x128.rank)
  bcast_S2x1x2x1_S2x64x2x128_0_1_2_3 : S2x1x2x1.BroadcastsInDim S2x64x2x128 (![0, 1, 2, 3] : Fin 4 → Fin S2x64x2x128.rank)
  bcast_S1x64x1x128_S2x64x2x128_0_1_2_3 : S1x64x1x128.BroadcastsInDim S2x64x2x128 (![0, 1, 2, 3] : Fin 4 → Fin S2x64x2x128.rank)
  shapeCasts_S2x64x2x128_S128x256 : S2x64x2x128.ShapeCasts S128x256
  bcast_S_S4x4 : S_.BroadcastsInDim S4x4 (![] : Fin 0 → Fin S4x4.rank)
  bcast_S4x4_S4x1x4x1_0_2 : S4x4.BroadcastsInDim S4x1x4x1 (![0, 2] : Fin 2 → Fin S4x1x4x1.rank)
  bcast_S4x1x4x1_S4x64x4x128_0_1_2_3 : S4x1x4x1.BroadcastsInDim S4x64x4x128 (![0, 1, 2, 3] : Fin 4 → Fin S4x64x4x128.rank)
  bcast_S1x64x1x128_S4x64x4x128_0_1_2_3 : S1x64x1x128.BroadcastsInDim S4x64x4x128 (![0, 1, 2, 3] : Fin 4 → Fin S4x64x4x128.rank)
  shapeCasts_S4x64x4x128_S256x512 : S4x64x4x128.ShapeCasts S256x512
  bcast_S_S8x8 : S_.BroadcastsInDim S8x8 (![] : Fin 0 → Fin S8x8.rank)
  bcast_S8x8_S8x1x8x1_0_2 : S8x8.BroadcastsInDim S8x1x8x1 (![0, 2] : Fin 2 → Fin S8x1x8x1.rank)
  bcast_S8x1x8x1_S8x64x8x128_0_1_2_3 : S8x1x8x1.BroadcastsInDim S8x64x8x128 (![0, 1, 2, 3] : Fin 4 → Fin S8x64x8x128.rank)
  bcast_S1x64x1x128_S8x64x8x128_0_1_2_3 : S1x64x1x128.BroadcastsInDim S8x64x8x128 (![0, 1, 2, 3] : Fin 4 → Fin S8x64x8x128.rank)
  shapeCasts_S8x64x8x128_S512x1024 : S8x64x8x128.ShapeCasts S512x1024
  bitsLt_bf16_f32 : FTy.bits .bf16 < FTy.bits .f32
  inb_S1024x3_S1024x3_0_0 : ∀ a, (![0, 0] : Fin 2 → Nat) a + S1024x3.size a ≤ S1024x3.size a
  h_S1024x3 : 0 < S1024x3.numel
  inb_S3x64_S3x64_0_0 : ∀ a, (![0, 0] : Fin 2 → Nat) a + S3x64.size a ≤ S3x64.size a
  h_S3x64 : 0 < S3x64.numel
  shapeCasts_S3x64_S3x64 : S3x64.ShapeCasts S3x64
  inb_S1x64_S1x64_0_0 : ∀ a, (![0, 0] : Fin 2 → Nat) a + S1x64.size a ≤ S1x64.size a
  h_S1x64 : 0 < S1x64.numel
  broadcasts_S1x64_S1024x64 : S1x64.Broadcasts S1024x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  broadcasts_S1x128_S1024x128 : S1x128.Broadcasts S1024x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  broadcasts_S1x256_S1024x256 : S1x256.Broadcasts S1024x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  broadcasts_S1x512_S1024x512 : S1x512.Broadcasts S1024x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  broadcasts_S1x1024_S1024x1024 : S1x1024.Broadcasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1_S1x1_0_0 : ∀ a, (![0, 0] : Fin 2 → Nat) a + S1x1.size a ≤ S1x1.size a
  h_S1x1 : 0 < S1x1.numel
  broadcasts_S1x1_S1024x1 : S1x1.Broadcasts S1024x1
  dot_S1024x3_S3x64_S1024x64_1_0_0_1_n_n_wf : DotDims.WF S1024x3 S3x64 S1024x64 [1] [0] [0] [1] [] []
  dot_S1024x64_S64x128_S1024x128_1_0_0_1_n_n_wf : DotDims.WF S1024x64 S64x128 S1024x128 [1] [0] [0] [1] [] []
  dot_S1024x128_S128x256_S1024x256_1_0_0_1_n_n_wf : DotDims.WF S1024x128 S128x256 S1024x256 [1] [0] [0] [1] [] []
  dot_S1024x256_S256x512_S1024x512_1_0_0_1_n_n_wf : DotDims.WF S1024x256 S256x512 S1024x512 [1] [0] [0] [1] [] []
  dot_S1024x512_S512x1024_S1024x1024_1_0_0_1_n_n_wf : DotDims.WF S1024x512 S512x1024 S1024x1024 [1] [0] [0] [1] [] []
  dot_S1024x1024_S1024x1_S1024x1_1_0_0_1_n_n_wf : DotDims.WF S1024x1024 S1024x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3.size a ≤ S131072x3.size a
  hwx0_0 : ∀ i : grid0.Coords, EltTy.bits .f32 = 32 ∨ (Rect.block (s := S131072x3) S1024x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x64.size a ≤ S3x64.size a
  hwx0_1 : ∀ i : grid0.Coords, EltTy.bits .bf16 = 32 ∨ (Rect.block (s := S3x64) S3x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .bf16 = 32 ∨ (Rect.block (s := S64x128) S64x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .bf16 = 32 ∨ (Rect.block (s := S128x256) S128x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x512.size a ≤ S256x512.size a
  hwx0_7 : ∀ i : grid0.Coords, EltTy.bits .bf16 = 32 ∨ (Rect.block (s := S256x512) S256x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S512x1024.size a
  hwx0_9 : ∀ i : grid0.Coords, EltTy.bits .bf16 = 32 ∨ (Rect.block (s := S512x1024) S512x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024x1.size a ≤ S1024x1.size a
  hwx0_11 : ∀ i : grid0.Coords, EltTy.bits .bf16 = 32 ∨ (Rect.block (s := S1024x1) S1024x1.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1.size a ≤ S1x1.size a
  hwx0_12 : ∀ i : grid0.Coords, EltTy.bits .f32 = 32 ∨ (Rect.block (s := S1x1) S1x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1024x1.size a ≤ S131072x1.size a
  hwx0_13 : ∀ i : grid0.Coords, EltTy.bits .f32 = 32 ∨ (Rect.block (s := S131072x1) S1024x1.size (cc0_transform_13 i) (hinb0_13 i)).WholeWords (EltTy.packing .f32)

variable [Facts₀]

def dot_S1024x3_S3x64_S1024x64_1_0_0_1_n_n : DotDims S1024x3 S3x64 S1024x64 where
  lhsContracting := [1]
  rhsContracting := [0]
  lhsNonContracting := [0]
  rhsNonContracting := [1]
  lhsBatch := []
  rhsBatch := []
  wf := dot_S1024x3_S3x64_S1024x64_1_0_0_1_n_n_wf
def dot_S1024x64_S64x128_S1024x128_1_0_0_1_n_n : DotDims S1024x64 S64x128 S1024x128 where
  lhsContracting := [1]
  rhsContracting := [0]
  lhsNonContracting := [0]
  rhsNonContracting := [1]
  lhsBatch := []
  rhsBatch := []
  wf := dot_S1024x64_S64x128_S1024x128_1_0_0_1_n_n_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x1024_S1024x1_S1024x1_1_0_0_1_n_n : DotDims S1024x1024 S1024x1 S1024x1 where
  lhsContracting := [1]
  rhsContracting := [0]
  lhsNonContracting := [0]
  rhsNonContracting := [1]
  lhsBatch := []
  rhsBatch := []
  wf := dot_S1024x1024_S1024x1_S1024x1_1_0_0_1_n_n_wf

abbrev win0_0 : Pipeline.Window sig grid0 :=
  Pipeline.Window.ofSpec (Memref.whole main_arg0) S1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S3x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v29) S256x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v31) S512x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v32) S1024x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S1x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v33) S1024x1.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S131072x3 : Shape := ⟨2, ![131072, 3]⟩
abbrev S3x64 : Shape := ⟨2, ![3, 64]⟩
abbrev S1x64 : Shape := ⟨2, ![1, 64]⟩
abbrev S64x128 : Shape := ⟨2, ![64, 128]⟩
abbrev S1x128 : Shape := ⟨2, ![1, 128]⟩
abbrev S128x256 : Shape := ⟨2, ![128, 256]⟩
abbrev S1x256 : Shape := ⟨2, ![1, 256]⟩
abbrev S256x512 : Shape := ⟨2, ![256, 512]⟩
abbrev S1x512 : Shape := ⟨2, ![1, 512]⟩
abbrev S512x1024 : Shape := ⟨2, ![512, 1024]⟩
abbrev S1x1024 : Shape := ⟨2, ![1, 1024]⟩
abbrev S1024x1 : Shape := ⟨2, ![1024, 1]⟩
abbrev S1x1 : Shape := ⟨2, ![1, 1]⟩
abbrev S2x2 : Shape := ⟨2, ![2, 2]⟩
abbrev S_ : Shape := ⟨0, ![]⟩
abbrev S2x1x2x1 : Shape := ⟨4, ![2, 1, 2, 1]⟩
abbrev S1x64x1x128 : Shape := ⟨4, ![1, 64, 1, 128]⟩
abbrev S2x64x2x128 : Shape := ⟨4, ![2, 64, 2, 128]⟩
abbrev S4x4 : Shape := ⟨2, ![4, 4]⟩
abbrev S4x1x4x1 : Shape := ⟨4, ![4, 1, 4, 1]⟩
abbrev S4x64x4x128 : Shape := ⟨4, ![4, 64, 4, 128]⟩
abbrev S8x8 : Shape := ⟨2, ![8, 8]⟩
abbrev S8x1x8x1 : Shape := ⟨4, ![8, 1, 8, 1]⟩
abbrev S8x64x8x128 : Shape := ⟨4, ![8, 64, 8, 128]⟩
abbrev S131072x64 : Shape := ⟨2, ![131072, 64]⟩
abbrev S131072x128 : Shape := ⟨2, ![131072, 128]⟩
abbrev S131072x256 : Shape := ⟨2, ![131072, 256]⟩
abbrev S131072x512 : Shape := ⟨2, ![131072, 512]⟩
abbrev S131072x1024 : Shape := ⟨2, ![131072, 1024]⟩
abbrev S131072x1 : Shape := ⟨2, ![131072, 1]⟩

abbrev nBuf : Space → Nat
  | .hbm => 84
  | .vmem => 0
  | .smem => 0
  | _ => 0

abbrev bufTy : (tb : Table) → Fin (tcTables nBuf tb) → BufTy
  | .hbm, ⟨0, _⟩ => ⟨S131072x3, .f32⟩
  | .hbm, ⟨1, _⟩ => ⟨S3x64, .f32⟩
  | .hbm, ⟨2, _⟩ => ⟨S1x64, .f32⟩
  | .hbm, ⟨3, _⟩ => ⟨S64x128, .f32⟩
  | .hbm, ⟨4, _⟩ => ⟨S1x128, .f32⟩
  | .hbm, ⟨5, _⟩ => ⟨S128x256, .f32⟩
  | .hbm, ⟨6, _⟩ => ⟨S1x256, .f32⟩
  | .hbm, ⟨7, _⟩ => ⟨S256x512, .f32⟩
  | .hbm, ⟨8, _⟩ => ⟨S1x512, .f32⟩
  | .hbm, ⟨9, _⟩ => ⟨S512x1024, .f32⟩
  | .hbm, ⟨10, _⟩ => ⟨S1x1024, .f32⟩
  | .hbm, ⟨11, _⟩ => ⟨S1024x1, .f32⟩
  | .hbm, ⟨12, _⟩ => ⟨S1x1, .f32⟩
  | .hbm, ⟨13, _⟩ => ⟨S2x2, .i32⟩
  | .hbm, ⟨14, _⟩ => ⟨S2x2, .i32⟩
  | .hbm, ⟨15, _⟩ => ⟨S_, .i32⟩
  | .hbm, ⟨16, _⟩ => ⟨S2x2, .i32⟩
  | .hbm, ⟨17, _⟩ => ⟨S2x2, .i32⟩
  | .hbm, ⟨18, _⟩ => ⟨S2x2, .i1⟩
  | .hbm, ⟨19, _⟩ => ⟨S2x2, .f32⟩
  | .hbm, ⟨20, _⟩ => ⟨S_, .f32⟩
  | .hbm, ⟨21, _⟩ => ⟨S64x128, .f32⟩
  | .hbm, ⟨22, _⟩ => ⟨S2x1x2x1, .f32⟩
  | .hbm, ⟨23, _⟩ => ⟨S1x64x1x128, .f32⟩
  | .hbm, ⟨24, _⟩ => ⟨S2x64x2x128, .f32⟩
  | .hbm, ⟨25, _⟩ => ⟨S2x64x2x128, .f32⟩
  | .hbm, ⟨26, _⟩ => ⟨S2x64x2x128, .f32⟩
  | .hbm, ⟨27, _⟩ => ⟨S128x256, .f32⟩
  | .hbm, ⟨28, _⟩ => ⟨S4x4, .i32⟩
  | .hbm, ⟨29, _⟩ => ⟨S4x4, .i32⟩
  | .hbm, ⟨30, _⟩ => ⟨S_, .i32⟩
  | .hbm, ⟨31, _⟩ => ⟨S4x4, .i32⟩
  | .hbm, ⟨32, _⟩ => ⟨S4x4, .i32⟩
  | .hbm, ⟨33, _⟩ => ⟨S4x4, .i1⟩
  | .hbm, ⟨34, _⟩ => ⟨S4x4, .f32⟩
  | .hbm, ⟨35, _⟩ => ⟨S_, .f32⟩
  | .hbm, ⟨36, _⟩ => ⟨S64x128, .f32⟩
  | .hbm, ⟨37, _⟩ => ⟨S4x1x4x1, .f32⟩
  | .hbm, ⟨38, _⟩ => ⟨S1x64x1x128, .f32⟩
  | .hbm, ⟨39, _⟩ => ⟨S4x64x4x128, .f32⟩
  | .hbm, ⟨40, _⟩ => ⟨S4x64x4x128, .f32⟩
  | .hbm, ⟨41, _⟩ => ⟨S4x64x4x128, .f32⟩
  | .hbm, ⟨42, _⟩ => ⟨S256x512, .f32⟩
  | .hbm, ⟨43, _⟩ => ⟨S8x8, .i32⟩
  | .hbm, ⟨44, _⟩ => ⟨S8x8, .i32⟩
  | .hbm, ⟨45, _⟩ => ⟨S_, .i32⟩
  | .hbm, ⟨46, _⟩ => ⟨S8x8, .i32⟩
  | .hbm, ⟨47, _⟩ => ⟨S8x8, .i32⟩
  | .hbm, ⟨48, _⟩ => ⟨S8x8, .i1⟩
  | .hbm, ⟨49, _⟩ => ⟨S8x8, .f32⟩
  | .hbm, ⟨50, _⟩ => ⟨S_, .f32⟩
  | .hbm, ⟨51, _⟩ => ⟨S64x128, .f32⟩
  | .hbm, ⟨52, _⟩ => ⟨S8x1x8x1, .f32⟩
  | .hbm, ⟨53, _⟩ => ⟨S1x64x1x128, .f32⟩
  | .hbm, ⟨54, _⟩ => ⟨S8x64x8x128, .f32⟩
  | .hbm, ⟨55, _⟩ => ⟨S8x64x8x128, .f32⟩
  | .hbm, ⟨56, _⟩ => ⟨S8x64x8x128, .f32⟩
  | .hbm, ⟨57, _⟩ => ⟨S512x1024, .f32⟩
  | .hbm, ⟨58, _⟩ => ⟨S131072x64, .f32⟩
  | .hbm, ⟨59, _⟩ => ⟨S131072x64, .f32⟩
  | .hbm, ⟨60, _⟩ => ⟨S131072x64, .f32⟩
  | .hbm, ⟨61, _⟩ => ⟨S131072x64, .f32⟩
  | .hbm, ⟨62, _⟩ => ⟨S131072x128, .f32⟩
  | .hbm, ⟨63, _⟩ => ⟨S131072x128, .f32⟩
  | .hbm, ⟨64, _⟩ => ⟨S131072x128, .f32⟩
  | .hbm, ⟨65, _⟩ => ⟨S131072x128, .f32⟩
  | .hbm, ⟨66, _⟩ => ⟨S128x256, .f32⟩
  | .hbm, ⟨67, _⟩ => ⟨S131072x256, .f32⟩
  | .hbm, ⟨68, _⟩ => ⟨S131072x256, .f32⟩
  | .hbm, ⟨69, _⟩ => ⟨S131072x256, .f32⟩
  | .hbm, ⟨70, _⟩ => ⟨S131072x256, .f32⟩
  | .hbm, ⟨71, _⟩ => ⟨S256x512, .f32⟩
  | .hbm, ⟨72, _⟩ => ⟨S131072x512, .f32⟩
  | .hbm, ⟨73, _⟩ => ⟨S131072x512, .f32⟩
  | .hbm, ⟨74, _⟩ => ⟨S131072x512, .f32⟩
  | .hbm, ⟨75, _⟩ => ⟨S131072x512, .f32⟩
  | .hbm, ⟨76, _⟩ => ⟨S512x1024, .f32⟩
  | .hbm, ⟨77, _⟩ => ⟨S131072x1024, .f32⟩
  | .hbm, ⟨78, _⟩ => ⟨S131072x1024, .f32⟩
  | .hbm, ⟨79, _⟩ => ⟨S131072x1024, .f32⟩
  | .hbm, ⟨80, _⟩ => ⟨S131072x1024, .f32⟩
  | .hbm, ⟨81, _⟩ => ⟨S131072x1, .f32⟩
  | .hbm, ⟨82, _⟩ => ⟨S131072x1, .f32⟩
  | .hbm, ⟨83, _⟩ => ⟨S131072x1, .f32⟩
  | _, _ => ⟨S131072x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_c_0 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_1 : Ref sig .tc := ⟨.hbm, 35, rfl⟩
abbrev main_v14 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_c_2 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst_3 : Ref sig .tc := ⟨.hbm, 50, rfl⟩
abbrev main_v22 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩

abbrev nD : Nat := 1
abbrev τ : Topo := Topo.v7x

variable {F : FTy → Type} [FloatOps F]

class Facts₀ : Prop where
  bcast_S_S2x2 : S_.BroadcastsInDim S2x2 (![] : Fin 0 → Fin S2x2.rank)
  bcast_S_S64x128 : S_.BroadcastsInDim S64x128 (![] : Fin 0 → Fin S64x128.rank)
  bcast_S2x2_S2x1x2x1_0_2 : S2x2.BroadcastsInDim S2x1x2x1 (![0, 2] : Fin 2 → Fin S2x1x2x1.rank)
  bcast_S64x128_S1x64x1x128_1_3 : S64x128.BroadcastsInDim S1x64x1x128 (![1, 3] : Fin 2 → Fin S1x64x1x128.rank)
  bcast_S2x1x2x1_S2x64x2x128_0_1_2_3 : S2x1x2x1.BroadcastsInDim S2x64x2x128 (![0, 1, 2, 3] : Fin 4 → Fin S2x64x2x128.rank)
  bcast_S1x64x1x128_S2x64x2x128_0_1_2_3 : S1x64x1x128.BroadcastsInDim S2x64x2x128 (![0, 1, 2, 3] : Fin 4 → Fin S2x64x2x128.rank)
  shapeCasts_S2x64x2x128_S128x256 : S2x64x2x128.ShapeCasts S128x256
  bcast_S_S4x4 : S_.BroadcastsInDim S4x4 (![] : Fin 0 → Fin S4x4.rank)
  bcast_S4x4_S4x1x4x1_0_2 : S4x4.BroadcastsInDim S4x1x4x1 (![0, 2] : Fin 2 → Fin S4x1x4x1.rank)
  bcast_S4x1x4x1_S4x64x4x128_0_1_2_3 : S4x1x4x1.BroadcastsInDim S4x64x4x128 (![0, 1, 2, 3] : Fin 4 → Fin S4x64x4x128.rank)
  bcast_S1x64x1x128_S4x64x4x128_0_1_2_3 : S1x64x1x128.BroadcastsInDim S4x64x4x128 (![0, 1, 2, 3] : Fin 4 → Fin S4x64x4x128.rank)
  shapeCasts_S4x64x4x128_S256x512 : S4x64x4x128.ShapeCasts S256x512
  bcast_S_S8x8 : S_.BroadcastsInDim S8x8 (![] : Fin 0 → Fin S8x8.rank)
  bcast_S8x8_S8x1x8x1_0_2 : S8x8.BroadcastsInDim S8x1x8x1 (![0, 2] : Fin 2 → Fin S8x1x8x1.rank)
  bcast_S8x1x8x1_S8x64x8x128_0_1_2_3 : S8x1x8x1.BroadcastsInDim S8x64x8x128 (![0, 1, 2, 3] : Fin 4 → Fin S8x64x8x128.rank)
  bcast_S1x64x1x128_S8x64x8x128_0_1_2_3 : S1x64x1x128.BroadcastsInDim S8x64x8x128 (![0, 1, 2, 3] : Fin 4 → Fin S8x64x8x128.rank)
  shapeCasts_S8x64x8x128_S512x1024 : S8x64x8x128.ShapeCasts S512x1024
  bcast_S1x64_S131072x64_0_1 : S1x64.BroadcastsInDim S131072x64 (![0, 1] : Fin 2 → Fin S131072x64.rank)
  bcast_S1x128_S131072x128_0_1 : S1x128.BroadcastsInDim S131072x128 (![0, 1] : Fin 2 → Fin S131072x128.rank)
  bcast_S1x256_S131072x256_0_1 : S1x256.BroadcastsInDim S131072x256 (![0, 1] : Fin 2 → Fin S131072x256.rank)
  bcast_S1x512_S131072x512_0_1 : S1x512.BroadcastsInDim S131072x512 (![0, 1] : Fin 2 → Fin S131072x512.rank)
  bcast_S1x1024_S131072x1024_0_1 : S1x1024.BroadcastsInDim S131072x1024 (![0, 1] : Fin 2 → Fin S131072x1024.rank)
  bcast_S1x1_S131072x1_0_1 : S1x1.BroadcastsInDim S131072x1 (![0, 1] : Fin 2 → Fin S131072x1.rank)
  dot_S131072x3_S3x64_S131072x64_1_0_0_1_n_n_wf : DotDims.WF S131072x3 S3x64 S131072x64 [1] [0] [0] [1] [] []
  dot_S131072x64_S64x128_S131072x128_1_0_0_1_n_n_wf : DotDims.WF S131072x64 S64x128 S131072x128 [1] [0] [0] [1] [] []
  dot_S131072x128_S128x256_S131072x256_1_0_0_1_n_n_wf : DotDims.WF S131072x128 S128x256 S131072x256 [1] [0] [0] [1] [] []
  dot_S131072x256_S256x512_S131072x512_1_0_0_1_n_n_wf : DotDims.WF S131072x256 S256x512 S131072x512 [1] [0] [0] [1] [] []
  dot_S131072x512_S512x1024_S131072x1024_1_0_0_1_n_n_wf : DotDims.WF S131072x512 S512x1024 S131072x1024 [1] [0] [0] [1] [] []
  dot_S131072x1024_S1024x1_S131072x1_1_0_0_1_n_n_wf : DotDims.WF S131072x1024 S1024x1 S131072x1 [1] [0] [0] [1] [] []

variable [Facts₀]

def dot_S131072x3_S3x64_S131072x64_1_0_0_1_n_n : DotDims S131072x3 S3x64 S131072x64 where
  lhsContracting := [1]
  rhsContracting := [0]
  lhsNonContracting := [0]
  rhsNonContracting := [1]
  lhsBatch := []
  rhsBatch := []
  wf := dot_S131072x3_S3x64_S131072x64_1_0_0_1_n_n_wf
def dot_S131072x64_S64x128_S131072x128_1_0_0_1_n_n : DotDims S131072x64 S64x128 S131072x128 where
  lhsContracting := [1]
  rhsContracting := [0]
  lhsNonContracting := [0]
  rhsNonContracting := [1]
  lhsBatch := []
  rhsBatch := []
  wf := dot_S131072x64_S64x128_S131072x128_1_0_0_1_n_n_wf
def dot_S131072x128_S128x256_S131072x256_1_0_0_1_n_n : DotDims S131072x128 S128x256 S131072x256 where
  lhsContracting := [1]
  rhsContracting := [0]
  lhsNonContracting := [0]
  rhsNonContracting := [1]
  lhsBatch := []
  rhsBatch := []
  wf := dot_S131072x128_S128x256_S131072x256_1_0_0_1_n_n_wf
def dot_S131072x256_S256x512_S131072x512_1_0_0_1_n_n : DotDims S131072x256 S256x512 S131072x512 where
  lhsContracting := [1]
  rhsContracting := [0]
  lhsNonContracting := [0]
  rhsNonContracting := [1]
  lhsBatch := []
  rhsBatch := []
  wf := dot_S131072x256_S256x512_S131072x512_1_0_0_1_n_n_wf
def dot_S131072x512_S512x1024_S131072x1024_1_0_0_1_n_n : DotDims S131072x512 S512x1024 S131072x1024 where
  lhsContracting := [1]
  rhsContracting := [0]
  lhsNonContracting := [0]
  rhsNonContracting := [1]
  lhsBatch := []
  rhsBatch := []
  wf := dot_S131072x512_S512x1024_S131072x1024_1_0_0_1_n_n_wf
def dot_S131072x1024_S1024x1_S131072x1_1_0_0_1_n_n : DotDims S131072x1024 S1024x1 S131072x1 where
  lhsContracting := [1]
  rhsContracting := [0]
  lhsNonContracting := [0]
  rhsNonContracting := [1]
  lhsBatch := []
  rhsBatch := []
  wf := dot_S131072x1024_S1024x1_S131072x1_1_0_0_1_n_n_wf

class Facts : Prop extends Facts₀ where

variable [Facts]
-- ==== Proof.LibPlainDot.lean ====
/-
  A product of an [M, K] array with a [K, N] array that contracts the left operand's axis 1 against the right
  operand's axis 0 (no batch axis), read at the entry (p, q): the sum over k of left (p, k) times right (k, q).
  Stated once for every dimension record of that kind, so that the kernel's matrix unit into a zero accumulator
  and the host's dot product are both read by instantiating it. With it, the transpose of an [a, b] array read at
  (p, q): the array at (q, p).
-/
import Idealize.ShloMosaic.Lib.ValueIdx
import Idealize.ShloMosaic.Lib.Pipeline.Value
import Idealize.ShloMosaic.PureOps.Ideal.Laws

noncomputable section

open scoped BigOperators

namespace Idealize.ShloMosaic.PlainDot

open Idealize.ShloMosaic Idealize.ShloMosaic.ValueIdx

variable {M K N : Nat} (D : DotDims ⟨2, ![M, K]⟩ ⟨2, ![K, N]⟩ ⟨2, ![M, N]⟩)

/-- The dimension numbers of a plain matrix product: rows of the left operand against columns of the right one. -/
structure IsPlain : Prop where
  lc : D.lhsContracting = [1]
  rc : D.rhsContracting = [0]
  ln : D.lhsNonContracting = [0]
  rn : D.rhsNonContracting = [1]
  lb : D.lhsBatch = []
  rb : D.rhsBatch = []

variable {D}

/-- The contraction runs over one axis … -/
theorem contr_rank (h : IsPlain D) : D.contr.rank = 1 := by
  rw [D.rank_contr, h.lc]; rfl

/-- … whose extent is the shared dimension K. -/
theorem contr_size (h : IsPlain D) : D.contr.size ⟨0, by have := contr_rank h; omega⟩ = K := by
  have h0 : 0 < D.lhsContracting.length := by rw [h.lc]; exact Nat.one_pos
  rw [D.size_contr 0 h0]
  simp [h.lc]

/-- The left operand's row is the result's row. -/
theorem lhs_row (h : IsPlain D) (j : (⟨2, ![M, N]⟩ : Shape).Idx) (q : D.contr.Idx) :
    (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb e => by subst e; rfl
  exact key _ _ _ _ (by simp [h.lb, h.ln])

/-- The left operand's column is the contraction coordinate. -/
theorem lhs_col (h : IsPlain D) (j : (⟨2, ![M, N]⟩ : Shape).Idx) (q : D.contr.Idx) :
    (D.lhsIdx j q 1).val = (q ⟨0, by have := contr_rank h; omega⟩).val :=
  D.lhsIdx_val_of_single h.lc j q

/-- The right operand's row is the contraction coordinate. -/
theorem rhs_row (h : IsPlain D) (j : (⟨2, ![M, N]⟩ : Shape).Idx) (q : D.contr.Idx) :
    (D.rhsIdx j q 0).val = (q ⟨0, by have := contr_rank h; omega⟩).val :=
  D.rhsIdx_val_of_single h.rc j q

/-- The right operand's column is the result's column. -/
theorem rhs_col (h : IsPlain D) (j : (⟨2, ![M, N]⟩ : Shape).Idx) (q : D.contr.Idx) :
    (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb e => by subst e; rfl
  exact key _ _ _ _ (by simp [h.lb, h.ln, h.rn])

/-- The contraction's sum, re-indexed by the shared coordinate k. -/
theorem sum_contr {α : Type*} [AddCommMonoid α] [Mul α] (h : IsPlain D)
    (l : (⟨2, ![M, K]⟩ : Shape).Idx → α) (r : (⟨2, ![K, N]⟩ : Shape).Idx → α) (p : Fin M) (q : Fin N) :
    ∑ k : D.contr.Idx, l (D.lhsIdx (ix2 p q) k) * r (D.rhsIdx (ix2 p q) k) = ∑ k : Fin K, l (ix2 p k) * r (ix2 k q) := by
  rw [← Equiv.sum_comp (contrEquiv1 D K (contr_rank h) (contr_size h)).symm]
  refine Finset.sum_congr rfl fun k _ => ?_
  have hk := contrEquiv1_symm_val D K (contr_rank h) (contr_size h) k
  have el : D.lhsIdx (ix2 p q) ((contrEquiv1 D K (contr_rank h) (contr_size h)).symm k) = ix2 p k :=
    funext fun a => Fin.ext (by
      match a with
      | ⟨0, _⟩ => exact lhs_row h _ _
      | ⟨1, _⟩ => exact (lhs_col h _ _).trans hk)
  have er : D.rhsIdx (ix2 p q) ((contrEquiv1 D K (contr_rank h) (contr_size h)).symm k) = ix2 k q :=
    funext fun a => Fin.ext (by
      match a with
      | ⟨0, _⟩ => exact (rhs_row h _ _).trans hk
      | ⟨1, _⟩ => exact rhs_col h _ _)
  rw [el, er]

/-- The matrix unit into the zero accumulator, on the extended reals, at (p, q). -/
theorem matmul_zero_apply {φ₁ φ₂ : FTy} (h : IsPlain D) (prec : Option ContractPrecision)
    (l : FVec Ideal ⟨2, ![M, K]⟩ φ₁) (r : FVec Ideal ⟨2, ![K, N]⟩ φ₂) (p : Fin M) (q : Fin N) :
    FloatOps.matmul D prec l r (constant ⟨2, ![M, N]⟩ .f32 0x00000000#32) (ix2 p q) = ∑ k : Fin K, l (ix2 p k) * r (ix2 k q) :=
  (Ideal.matmul_constant_zero_apply D prec l r (ix2 p q)).trans (sum_contr h l r p q)

/-- The host's dot product, on the extended reals, at (p, q). -/
theorem dotGeneral_apply {φ₁ φ₂ : FTy} (h : IsPlain D) (prec : Option ContractPrecision) (sched : HostSchedule)
    (l : FVec Ideal ⟨2, ![M, K]⟩ φ₁) (r : FVec Ideal ⟨2, ![K, N]⟩ φ₂) (p : Fin M) (q : Fin N) :
    FloatOps.dotGeneral D prec sched l r (ix2 p q) = ∑ k : Fin K, l (ix2 p k) * r (ix2 k q) :=
  (Ideal.dotGeneral_apply D prec sched l r (ix2 p q)).trans (sum_contr h l r p q)

/-- The transpose of an [a, b] array at (p, q) is the array at (q, p). -/
theorem transpose_apply2 {α : Type} {a b : Nat} (x : (⟨2, ![a, b]⟩ : Shape).Idx → α)
    (h : (⟨2, ![a, b]⟩ : Shape).Transposes [1, 0] ⟨2, ![b, a]⟩) (p : Fin b) (q : Fin a) :
    transpose ⟨2, ![b, a]⟩ [1, 0] x h (ix2 p q) = x (ix2 q p) :=
  transpose_apply [1, 0] x h (ix2 p q) (ix2 q p) (fun c => match c with
    | ⟨0, _⟩ => rfl
    | ⟨1, _⟩ => rfl)

end Idealize.ShloMosaic.PlainDot

end
-- ==== Proof.LibRowWise.lean ====
/-
  An [R, C] array of extended reals described ROW BY ROW. `Rows V f` says that the array `V` holds `f p q` at row `p`,
  column `q`. A network that treats the rows of a batch independently of one another (products with fixed weight
  matrices, a bias row added to every row, pointwise nonlinearities) keeps such a description through each of its
  operations whatever the number of rows is, so that a block of rows and the whole batch are read by the same lemmas:

  * pointwise: sum, difference, product, maximum, tanh, the logistic function (as one operation, and spelt
    1 / (1 + exp (-x)) with the float word of 1.0), a change of float format (the identity on extended reals);
  * a product with a [K, C] matrix on the right, by the matrix unit into a zero accumulator and by the host's dot
    product: row p of the result is row p of the left operand times the matrix;
  * matrix number o of a stack [n, K, C], cut out and viewed as [K, C];
  * row number o of a stack [n, 1, C], cut out, viewed as a [1, C] row and repeated down R rows (both spellings of
    the repetition);
  * a scalar repeated over the whole array (both spellings).
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import proofs.«170963_j70789650973458_1_alg».proof.Proof.LibPlainDot

noncomputable section

open scoped BigOperators

namespace Idealize.ShloMosaic.RowWise

open Idealize.ShloMosaic Idealize.ShloMosaic.ValueIdx

/-- The array `V` holds `f p q` at row `p`, column `q`. -/
def Rows {R C : ℕ} (V : (⟨2, ![R, C]⟩ : Shape).Idx → EReal) (f : Fin R → Fin C → EReal) : Prop :=
  ∀ (p : Fin R) (q : Fin C), V (ix2 p q) = f p q

variable {R C : ℕ} {φ : FTy}

/-- Every array is described by its own entries. -/
theorem rows_self (V : (⟨2, ![R, C]⟩ : Shape).Idx → EReal) : Rows V fun p q => V (ix2 p q) := fun _ _ => rfl

/-- A description may be replaced by an equal one. -/
theorem Rows.congr {V : (⟨2, ![R, C]⟩ : Shape).Idx → EReal} {f g : Fin R → Fin C → EReal} (h : Rows V f)
    (e : ∀ p q, f p q = g p q) : Rows V g := fun p q => (h p q).trans (e p q)

/-- Two arrays with one description are equal. -/
theorem Rows.ext {V W : (⟨2, ![R, C]⟩ : Shape).Idx → EReal} {f : Fin R → Fin C → EReal} (hV : Rows V f) (hW : Rows W f) :
    V = W := funext fun j => by
  obtain ⟨p, q, rfl⟩ : ∃ (p : Fin R) (q : Fin C), j = ix2 p q := ⟨j 0, j 1, eq_ix2 j⟩
  exact (hV p q).trans (hW p q).symm

/-! ## Pointwise operations -/

theorem rows_addf {a b : FVec Ideal ⟨2, ![R, C]⟩ φ} {f g : Fin R → Fin C → EReal} (ha : Rows a f) (hb : Rows b g) :
    Rows (addf a b) fun p q => f p q + g p q := fun p q =>
  (addf_apply a b (ix2 p q)).trans (by rw [ha p q, hb p q])

theorem rows_subf {a b : FVec Ideal ⟨2, ![R, C]⟩ φ} {f g : Fin R → Fin C → EReal} (ha : Rows a f) (hb : Rows b g) :
    Rows (subf a b) fun p q => f p q - g p q := fun p q =>
  (subf_apply a b (ix2 p q)).trans (by rw [ha p q, hb p q])

theorem rows_mulf {a b : FVec Ideal ⟨2, ![R, C]⟩ φ} {f g : Fin R → Fin C → EReal} (ha : Rows a f) (hb : Rows b g) :
    Rows (mulf a b) fun p q => f p q * g p q := fun p q =>
  (mulf_apply a b (ix2 p q)).trans (by rw [ha p q, hb p q])

theorem rows_maximumf {a b : FVec Ideal ⟨2, ![R, C]⟩ φ} {f g : Fin R → Fin C → EReal} (ha : Rows a f) (hb : Rows b g) :
    Rows (maximumf a b) fun p q => max (f p q) (g p q) := fun p q =>
  (maximumf_apply a b (ix2 p q)).trans (by rw [ha p q, hb p q])

/-- A narrowing change of float format keeps every entry. -/
theorem rows_truncf {ψ : FTy} {a : FVec Ideal ⟨2, ![R, C]⟩ φ} {f : Fin R → Fin C → EReal} (h : ψ.bits < φ.bits)
    (ha : Rows a f) : Rows (truncf ψ a h : FVec Ideal ⟨2, ![R, C]⟩ ψ) f := fun p q =>
  (truncf_apply a h (ix2 p q)).trans (ha p q)

/-- The kernel's hyperbolic tangent. -/
theorem rows_tanh {a : FVec Ideal ⟨2, ![R, C]⟩ φ} {f : Fin R → Fin C → EReal} (ha : Rows a f) :
    Rows (tanh a) fun p q => Ideal.tanh (f p q) := fun p q =>
  (show tanh a (ix2 p q) = Ideal.tanh (a (ix2 p q)) from rfl).trans (by rw [ha p q])

/-- The host's hyperbolic tangent is the same function. -/
theorem rows_hostTanh {a : FVec Ideal ⟨2, ![R, C]⟩ φ} {f : Fin R → Fin C → EReal} (ha : Rows a f) :
    Rows (Host.tanh a) fun p q => Ideal.tanh (f p q) := fun p q =>
  (show Host.tanh a (ix2 p q) = Ideal.tanh (a (ix2 p q)) from rfl).trans (by rw [ha p q])

/-- The logistic function as one operation. -/
theorem rows_logistic {a : FVec Ideal ⟨2, ![R, C]⟩ φ} {f : Fin R → Fin C → EReal} (ha : Rows a f) :
    Rows (logistic a) fun p q => Ideal.logistic (f p q) := fun p q =>
  (show logistic a (ix2 p q) = Ideal.logistic (a (ix2 p q)) from rfl).trans (by rw [ha p q])

/-- The logistic function spelt out on the host, 1 / (1 + exp (-x)), with both ones the float word of 1.0: on the
    extended reals this IS the logistic function, at the infinities too. -/
theorem rows_hostLogistic {a u v : FVec Ideal ⟨2, ![R, C]⟩ .f32} {f : Fin R → Fin C → EReal} (ha : Rows a f)
    (hu : Rows u fun _ _ => Ideal.ofBits .f32 0x3F800000#32) (hv : Rows v fun _ _ => Ideal.ofBits .f32 0x3F800000#32) :
    Rows (Host.divf u (addf v (Host.exp (Host.negf a)))) fun p q => Ideal.logistic (f p q) := fun p q => by
  show FloatOps.hostDivf (u (ix2 p q)) (FloatOps.addf (v (ix2 p q)) (FloatOps.hostUnary .exp (FloatOps.hostNegf (a (ix2 p q))))) = _
  rw [hu p q, hv p q, ha p q, Ideal.ofBits_one_f32]
  rfl

/-! ## Products with a matrix on the right -/

/-- The matrix unit into a zero accumulator: row p of the result is row p of the left operand times the matrix. -/
theorem rows_matmul {K : ℕ} {φ₁ φ₂ : FTy} {D : DotDims ⟨2, ![R, K]⟩ ⟨2, ![K, C]⟩ ⟨2, ![R, C]⟩} (hD : PlainDot.IsPlain D)
    (prec : Option ContractPrecision) {l : FVec Ideal ⟨2, ![R, K]⟩ φ₁} {r : FVec Ideal ⟨2, ![K, C]⟩ φ₂}
    {f : Fin R → Fin K → EReal} {w : Fin K → Fin C → EReal} (hl : Rows l f) (hr : Rows r w) :
    Rows (matmul D prec l r (constant ⟨2, ![R, C]⟩ .f32 0x00000000#32)) fun p q => ∑ k : Fin K, f p k * w k q := fun p q =>
  (PlainDot.matmul_zero_apply hD prec l r p q).trans (Finset.sum_congr rfl fun k _ => by rw [hl p k, hr k q])

/-- The host's dot product: the same sum. -/
theorem rows_dotGeneral {K : ℕ} {φ₁ φ₂ : FTy} {D : DotDims ⟨2, ![R, K]⟩ ⟨2, ![K, C]⟩ ⟨2, ![R, C]⟩} (hD : PlainDot.IsPlain D)
    (prec : Option ContractPrecision) {l : FVec Ideal ⟨2, ![R, K]⟩ φ₁} {r : FVec Ideal ⟨2, ![K, C]⟩ φ₂}
    {f : Fin R → Fin K → EReal} {w : Fin K → Fin C → EReal} (hl : Rows l f) (hr : Rows r w) :
    Rows (Host.dotGeneral D prec l r) fun p q => ∑ k : Fin K, f p k * w k q := fun p q =>
  (PlainDot.dotGeneral_apply hD prec .single l r p q).trans (Finset.sum_congr rfl fun k _ => by rw [hl p k, hr k q])

/-! ## Pieces of stacked parameters -/

/-- Matrix number `o` of a stack of `n` matrices, cut out as a [1, K, C] block and viewed as [K, C]. -/
theorem rows_stackedMatrix {n K : ℕ} (W : (⟨3, ![n, K, C]⟩ : Shape).Idx → EReal) (o : Fin n)
    (hs : (⟨3, ![n, K, C]⟩ : Shape).Slices ![o.val, 0, 0] ⟨3, ![1, K, C]⟩)
    (hc : (⟨3, ![1, K, C]⟩ : Shape).ShapeCasts ⟨2, ![K, C]⟩) :
    Rows (shapeCast ⟨2, ![K, C]⟩ (extractStridedSlice ⟨3, ![1, K, C]⟩ ![o.val, 0, 0] W hs) hc) fun k q => W (ix3 o k q) :=
  fun k q => (shapeCast_1ab_ab_apply _ hc k q).trans
    (extractStridedSlice_apply _ W hs _ (ix3 o k q) fun a => match a with
      | ⟨0, _⟩ => rfl
      | ⟨1, _⟩ => (Nat.zero_add _).symm
      | ⟨2, _⟩ => (Nat.zero_add _).symm)

/-- A [1, 1, C] block viewed as a [1, C] row keeps its entries. -/
theorem shapeCast_11c_1c_apply {α : Type} (x : (⟨3, ![1, 1, C]⟩ : Shape).Idx → α)
    (h : (⟨3, ![1, 1, C]⟩ : Shape).ShapeCasts ⟨2, ![1, C]⟩) (p : Fin 1) (q : Fin C) :
    shapeCast ⟨2, ![1, C]⟩ x h (ix2 p q) = x (ix3 (0 : Fin 1) (0 : Fin 1) q) :=
  shapeCast_apply x h _ _ (by
    have hp : p.val = 0 := by omega
    rw [Shape.rowMajor_val_three, Shape.rowMajor_val_two]
    show (0 * 1 + 0) * C + q.val = p.val * C + q.val
    rw [hp])

/-- Row number `o` of a stack [n, 1, C] at column `q`, after it is cut out and viewed as a [1, C] row. -/
theorem stackedRow_apply {n : ℕ} (b : (⟨3, ![n, 1, C]⟩ : Shape).Idx → EReal) (o : Fin n)
    (hs : (⟨3, ![n, 1, C]⟩ : Shape).Slices ![o.val, 0, 0] ⟨3, ![1, 1, C]⟩)
    (hc : (⟨3, ![1, 1, C]⟩ : Shape).ShapeCasts ⟨2, ![1, C]⟩) (q : Fin C) :
    shapeCast ⟨2, ![1, C]⟩ (extractStridedSlice ⟨3, ![1, 1, C]⟩ ![o.val, 0, 0] b hs) hc (ix2 (0 : Fin 1) q)
      = b (ix3 o (0 : Fin 1) q) :=
  (shapeCast_11c_1c_apply _ hc 0 q).trans
    (extractStridedSlice_apply _ b hs _ (ix3 o (0 : Fin 1) q) fun a => match a with
      | ⟨0, _⟩ => rfl
      | ⟨1, _⟩ => rfl
      | ⟨2, _⟩ => (Nat.zero_add _).symm)

/-- That row repeated down `R` rows by the kernel's broadcast. -/
theorem rows_stackedRow {n : ℕ} (b : (⟨3, ![n, 1, C]⟩ : Shape).Idx → EReal) (o : Fin n)
    (hs : (⟨3, ![n, 1, C]⟩ : Shape).Slices ![o.val, 0, 0] ⟨3, ![1, 1, C]⟩)
    (hc : (⟨3, ![1, 1, C]⟩ : Shape).ShapeCasts ⟨2, ![1, C]⟩)
    (hb : (⟨2, ![1, C]⟩ : Shape).Broadcasts ⟨2, ![R, C]⟩) :
    Rows (broadcastTo ⟨2, ![R, C]⟩ (shapeCast ⟨2, ![1, C]⟩ (extractStridedSlice ⟨3, ![1, 1, C]⟩ ![o.val, 0, 0] b hs) hc) hb)
      fun _ q => b (ix3 o (0 : Fin 1) q) :=
  fun p q => (broadcastTo_1b_ab_apply _ hb p q).trans (stackedRow_apply b o hs hc q)

/-- A [1, C] row repeated down `R` rows by the host's broadcast along both axes. -/
theorem broadcastInDim_1c_rc_apply {α : Type} (v : (⟨2, ![1, C]⟩ : Shape).Idx → α)
    (h : (⟨2, ![1, C]⟩ : Shape).BroadcastsInDim ⟨2, ![R, C]⟩ ![0, 1]) (p : Fin R) (q : Fin C) :
    broadcastInDim ⟨2, ![R, C]⟩ ![0, 1] h v (ix2 p q) = v (ix2 (0 : Fin 1) q) := by
  refine broadcastInDim_apply ![0, 1] h v (ix2 p q) (ix2 (0 : Fin 1) q) fun ax => ?_
  match ax with
  | ⟨0, _⟩ => rfl
  | ⟨1, _⟩ =>
    show q.val = if C = 1 then 0 else q.val
    split
    · have := q.isLt; omega
    · rfl

/-- The stack's row repeated down `R` rows by the host's broadcast. -/
theorem rows_hostStackedRow {n : ℕ} (b : (⟨3, ![n, 1, C]⟩ : Shape).Idx → EReal) (o : Fin n)
    (hs : (⟨3, ![n, 1, C]⟩ : Shape).Slices ![o.val, 0, 0] ⟨3, ![1, 1, C]⟩)
    (hc : (⟨3, ![1, 1, C]⟩ : Shape).ShapeCasts ⟨2, ![1, C]⟩)
    (hb : (⟨2, ![1, C]⟩ : Shape).BroadcastsInDim ⟨2, ![R, C]⟩ ![0, 1]) :
    Rows (broadcastInDim ⟨2, ![R, C]⟩ ![0, 1] hb (shapeCast ⟨2, ![1, C]⟩ (extractStridedSlice ⟨3, ![1, 1, C]⟩ ![o.val, 0, 0] b hs) hc))
      fun _ q => b (ix3 o (0 : Fin 1) q) :=
  fun p q => (broadcastInDim_1c_rc_apply _ hb p q).trans (stackedRow_apply b o hs hc q)

/-! ## A scalar over the whole array -/

/-- The kernel's splat of a scalar. -/
theorem rows_broadcast (x : EReal) : Rows (broadcast ⟨2, ![R, C]⟩ x) fun _ _ => x := fun _ _ => rfl

/-- The host's broadcast of a rank-0 constant. -/
theorem rows_hostConstant (w : BitVec (FTy.bits φ)) (h : (⟨0, ![]⟩ : Shape).BroadcastsInDim ⟨2, ![R, C]⟩ ![]) :
    Rows (broadcastInDim ⟨2, ![R, C]⟩ ![] h (constant (F := Ideal) ⟨0, ![]⟩ φ w)) fun _ _ => Ideal.ofBits φ w :=
  fun p q => broadcastInDim_apply ![] h _ (ix2 p q) ix0 fun a => a.elim0

end Idealize.ShloMosaic.RowWise

end
-- ==== Proof.LibDenseRows.lean ====
/-
  Dense layers read ROW BY ROW. A row x, a weight matrix w and a bias row b give the row
  q ↦ (∑ k, x k · w k q) + b q  (`dense`), and a hidden layer with the sine takes the sine of every entry of that row
  (`sinDense`). On the extended reals, where a change of float format is the identity, a layer as a kernel spells it
  on a block of rows (the matrix unit into a zero accumulator on narrowed operands, the bias row repeated down the
  block by `broadcastTo`, the sine, the narrowing) and as the host spells it on a whole batch (its dot product, the bias
  row repeated down the batch by `broadcastInDim` along both axes, its sine) keep the row-by-row description of their
  left operand, whatever the number of rows is:

  * `rows_sin` / `rows_hostSin`: the sine, both spellings;
  * `rows_bias` / `rows_hostBias`: a [1, C] row repeated down R rows, both spellings;
  * `rows_kernelDense` / `rows_kernelHidden`: the kernel's layer, without and with the sine and the narrowing;
  * `rows_hostDense` / `rows_hostHidden`: the host's layer.

  Built on the row-by-row lemmas of LibRowWise.lean (which imports LibPlainDot.lean): copy all three.
-/
import Idealize.ShloMosaic.Lib.ValueIdx
import Idealize.ShloMosaic.Lib.ValueLayout
import Idealize.ShloMosaic.Lib.Pipeline.Value
import Idealize.ShloMosaic.PureOps.Ideal.Laws
import proofs.«170963_j70789650973458_1_alg».proof.Proof.LibRowWise

noncomputable section

open scoped BigOperators

namespace Idealize.ShloMosaic.DenseRows

open Idealize.ShloMosaic Idealize.ShloMosaic.ValueIdx Idealize.ShloMosaic.RowWise

/-- One dense layer on a row: the row times the weight matrix, plus the bias row. -/
def dense {K C : ℕ} (w : Fin K → Fin C → EReal) (b : Fin C → EReal) (x : Fin K → EReal) : Fin C → EReal :=
  fun q => (∑ k : Fin K, x k * w k q) + b q

/-- One hidden layer on a row: the sine of the dense layer's row, entry by entry. -/
def sinDense {K C : ℕ} (w : Fin K → Fin C → EReal) (b : Fin C → EReal) (x : Fin K → EReal) : Fin C → EReal :=
  fun q => Ideal.sin (dense w b x q)

/-- A [K, C] array as the matrix of its entries. -/
abbrev mat {K C : ℕ} (w : (⟨2, ![K, C]⟩ : Shape).Idx → EReal) : Fin K → Fin C → EReal := fun k q => w (ix2 k q)

/-- A [1, C] array as the row of its entries. -/
abbrev row {C : ℕ} (b : (⟨2, ![1, C]⟩ : Shape).Idx → EReal) : Fin C → EReal := fun q => b (ix2 (0 : Fin 1) q)

variable {R K C : ℕ} {φ : FTy}

/-! ## The operations the reused row-by-row lemmas do not have -/

/-- The kernel's sine, entry by entry. -/
theorem rows_sin {a : FVec Ideal ⟨2, ![R, C]⟩ φ} {f : Fin R → Fin C → EReal} (ha : Rows a f) :
    Rows (sin a) fun p q => Ideal.sin (f p q) := fun p q =>
  (show sin a (ix2 p q) = Ideal.sin (a (ix2 p q)) from rfl).trans (by rw [ha p q])

/-- The host's sine is the same function. -/
theorem rows_hostSin {a : FVec Ideal ⟨2, ![R, C]⟩ φ} {f : Fin R → Fin C → EReal} (ha : Rows a f) :
    Rows (Host.sin a) fun p q => Ideal.sin (f p q) := fun p q =>
  (show Host.sin a (ix2 p q) = Ideal.sin (a (ix2 p q)) from rfl).trans (by rw [ha p q])

/-- A bias row repeated down R rows by the kernel's broadcast. -/
theorem rows_bias (b : FVec Ideal ⟨2, ![1, C]⟩ φ) (hb : (⟨2, ![1, C]⟩ : Shape).Broadcasts ⟨2, ![R, C]⟩) :
    Rows (broadcastTo ⟨2, ![R, C]⟩ b hb) fun _ q => row b q := fun p q => broadcastTo_1b_ab_apply b hb p q

/-- A bias row repeated down R rows by the host's broadcast along both axes. -/
theorem rows_hostBias (b : FVec Ideal ⟨2, ![1, C]⟩ φ) (hb : (⟨2, ![1, C]⟩ : Shape).BroadcastsInDim ⟨2, ![R, C]⟩ ![0, 1]) :
    Rows (broadcastInDim ⟨2, ![R, C]⟩ ![0, 1] hb b) fun _ q => row b q := fun p q =>
  broadcastInDim_1c_rc_apply b hb p q

/-! ## A layer, as the kernel spells it and as the host spells it -/

/-- The kernel's dense layer on a block of rows: row p of the result is the dense layer of row p. -/
theorem rows_kernelDense {D : DotDims ⟨2, ![R, K]⟩ ⟨2, ![K, C]⟩ ⟨2, ![R, C]⟩} (hD : PlainDot.IsPlain D)
    (h : FVec Ideal ⟨2, ![R, K]⟩ .bf16) (w : FVec Ideal ⟨2, ![K, C]⟩ .bf16) (b : FVec Ideal ⟨2, ![1, C]⟩ .f32)
    (hsc : (⟨2, ![K, C]⟩ : Shape).ShapeCasts ⟨2, ![K, C]⟩) (hb : (⟨2, ![1, C]⟩ : Shape).Broadcasts ⟨2, ![R, C]⟩)
    {f : Fin R → Fin K → EReal} (hh : Rows h f) :
    Rows (addf (matmul D none h (shapeCast ⟨2, ![K, C]⟩ w hsc) (constant ⟨2, ![R, C]⟩ .f32 0x00000000#32))
        (broadcastTo ⟨2, ![R, C]⟩ b hb))
      fun p => dense (mat w) (row b) (f p) := by
  rw [shapeCast_self]
  exact rows_addf (rows_matmul hD none hh (rows_self w)) (rows_bias b hb)

/-- The kernel's hidden layer on a block of rows, its result narrowed for the next matrix unit. -/
theorem rows_kernelHidden {D : DotDims ⟨2, ![R, K]⟩ ⟨2, ![K, C]⟩ ⟨2, ![R, C]⟩} (hD : PlainDot.IsPlain D)
    (h : FVec Ideal ⟨2, ![R, K]⟩ .bf16) (w : FVec Ideal ⟨2, ![K, C]⟩ .bf16) (b : FVec Ideal ⟨2, ![1, C]⟩ .f32)
    (hsc : (⟨2, ![K, C]⟩ : Shape).ShapeCasts ⟨2, ![K, C]⟩) (hb : (⟨2, ![1, C]⟩ : Shape).Broadcasts ⟨2, ![R, C]⟩)
    (hlt : FTy.bits .bf16 < FTy.bits .f32) {f : Fin R → Fin K → EReal} (hh : Rows h f) :
    Rows (truncf .bf16 (sin (addf (matmul D none h (shapeCast ⟨2, ![K, C]⟩ w hsc) (constant ⟨2, ![R, C]⟩ .f32 0x00000000#32))
        (broadcastTo ⟨2, ![R, C]⟩ b hb))) hlt : FVec Ideal ⟨2, ![R, C]⟩ .bf16)
      fun p => sinDense (mat w) (row b) (f p) :=
  rows_truncf hlt (rows_sin (rows_kernelDense hD h w b hsc hb hh))

/-- The host's dense layer on the whole batch. -/
theorem rows_hostDense {D : DotDims ⟨2, ![R, K]⟩ ⟨2, ![K, C]⟩ ⟨2, ![R, C]⟩} (hD : PlainDot.IsPlain D)
    (h : FVec Ideal ⟨2, ![R, K]⟩ .f32) (w : FVec Ideal ⟨2, ![K, C]⟩ .f32) (b : FVec Ideal ⟨2, ![1, C]⟩ .f32)
    (hb : (⟨2, ![1, C]⟩ : Shape).BroadcastsInDim ⟨2, ![R, C]⟩ ![0, 1])
    {f : Fin R → Fin K → EReal} (hh : Rows h f) :
    Rows (addf (Host.dotGeneral D none h w) (broadcastInDim ⟨2, ![R, C]⟩ ![0, 1] hb b))
      fun p => dense (mat w) (row b) (f p) :=
  rows_addf (rows_dotGeneral hD none hh (rows_self w)) (rows_hostBias b hb)

/-- The host's hidden layer on the whole batch. -/
theorem rows_hostHidden {D : DotDims ⟨2, ![R, K]⟩ ⟨2, ![K, C]⟩ ⟨2, ![R, C]⟩} (hD : PlainDot.IsPlain D)
    (h : FVec Ideal ⟨2, ![R, K]⟩ .f32) (w : FVec Ideal ⟨2, ![K, C]⟩ .f32) (b : FVec Ideal ⟨2, ![1, C]⟩ .f32)
    (hb : (⟨2, ![1, C]⟩ : Shape).BroadcastsInDim ⟨2, ![R, C]⟩ ![0, 1])
    {f : Fin R → Fin K → EReal} (hh : Rows h f) :
    Rows (Host.sin (addf (Host.dotGeneral D none h w) (broadcastInDim ⟨2, ![R, C]⟩ ![0, 1] hb b)))
      fun p => sinDense (mat w) (row b) (f p) :=
  rows_hostSin (rows_hostDense hD h w b hb hh)

end Idealize.ShloMosaic.DenseRows

end
-- ==== Proof.RowNet.lean ====
/-
  The network of this certificate on one row and on a batch of rows: five hidden layers with the sine, of widths
  3 → 64 → 128 → 256 → 512 → 1024, and one plain dense layer 1024 → 1. Every row of a batch goes through it
  independently of the other rows, so the batch array of a block of rows, read at a row, is the batch array of the
  whole input read at that row.
-/
import proofs.«170963_j70789650973458_1_alg».proof.Proof.LibDenseRows

noncomputable section

open scoped BigOperators

namespace Cert.RowNet

open Idealize.ShloMosaic Idealize.ShloMosaic.ValueIdx Idealize.ShloMosaic.RowWise Idealize.ShloMosaic.DenseRows

/-! ## The network of this certificate on one row -/

/-- Five hidden layers, of widths 3 → 64 → 128 → 256 → 512 → 1024, and a dense layer 1024 → 1, on the row x. -/
def net (w0 : Fin 3 → Fin 64 → EReal) (b0 : Fin 64 → EReal) (w1 : Fin 64 → Fin 128 → EReal) (b1 : Fin 128 → EReal)
    (w2 : Fin 128 → Fin 256 → EReal) (b2 : Fin 256 → EReal) (w3 : Fin 256 → Fin 512 → EReal) (b3 : Fin 512 → EReal)
    (w4 : Fin 512 → Fin 1024 → EReal) (b4 : Fin 1024 → EReal) (w5 : Fin 1024 → Fin 1 → EReal) (b5 : Fin 1 → EReal)
    (x : Fin 3 → EReal) : Fin 1 → EReal :=
  dense w5 b5 (sinDense w4 b4 (sinDense w3 b3 (sinDense w2 b2 (sinDense w1 b1 (sinDense w0 b0 x)))))

/-! ## The network on a whole batch of rows -/

/-- The [R, 1] array whose entry (r, 0) is the network of row r of the [R, 3] array X. The weight matrices and bias
    rows are given as arrays; the three masked weight matrices are given already masked. -/
def batch {R : ℕ} (X : (⟨2, ![R, 3]⟩ : Shape).Idx → EReal)
    (W0 : (⟨2, ![3, 64]⟩ : Shape).Idx → EReal) (B0 : (⟨2, ![1, 64]⟩ : Shape).Idx → EReal)
    (W1 : (⟨2, ![64, 128]⟩ : Shape).Idx → EReal) (B1 : (⟨2, ![1, 128]⟩ : Shape).Idx → EReal)
    (W2 : (⟨2, ![128, 256]⟩ : Shape).Idx → EReal) (B2 : (⟨2, ![1, 256]⟩ : Shape).Idx → EReal)
    (W3 : (⟨2, ![256, 512]⟩ : Shape).Idx → EReal) (B3 : (⟨2, ![1, 512]⟩ : Shape).Idx → EReal)
    (W4 : (⟨2, ![512, 1024]⟩ : Shape).Idx → EReal) (B4 : (⟨2, ![1, 1024]⟩ : Shape).Idx → EReal)
    (W5 : (⟨2, ![1024, 1]⟩ : Shape).Idx → EReal) (B5 : (⟨2, ![1, 1]⟩ : Shape).Idx → EReal) :
    (⟨2, ![R, 1]⟩ : Shape).Idx → EReal :=
  fun i => net (mat W0) (row B0) (mat W1) (row B1) (mat W2) (row B2) (mat W3) (row B3) (mat W4) (row B4) (mat W5) (row B5)
    (fun k => X (ix2 (i 0) k)) (i 1)

/-- An array described row by row by the network is the batch array. -/
theorem eq_batch_of_rows {R : ℕ} {V : (⟨2, ![R, 1]⟩ : Shape).Idx → EReal} {X : (⟨2, ![R, 3]⟩ : Shape).Idx → EReal}
    {W0 : (⟨2, ![3, 64]⟩ : Shape).Idx → EReal} {B0 : (⟨2, ![1, 64]⟩ : Shape).Idx → EReal}
    {W1 : (⟨2, ![64, 128]⟩ : Shape).Idx → EReal} {B1 : (⟨2, ![1, 128]⟩ : Shape).Idx → EReal}
    {W2 : (⟨2, ![128, 256]⟩ : Shape).Idx → EReal} {B2 : (⟨2, ![1, 256]⟩ : Shape).Idx → EReal}
    {W3 : (⟨2, ![256, 512]⟩ : Shape).Idx → EReal} {B3 : (⟨2, ![1, 512]⟩ : Shape).Idx → EReal}
    {W4 : (⟨2, ![512, 1024]⟩ : Shape).Idx → EReal} {B4 : (⟨2, ![1, 1024]⟩ : Shape).Idx → EReal}
    {W5 : (⟨2, ![1024, 1]⟩ : Shape).Idx → EReal} {B5 : (⟨2, ![1, 1]⟩ : Shape).Idx → EReal}
    (h : Rows V fun p => net (mat W0) (row B0) (mat W1) (row B1) (mat W2) (row B2) (mat W3) (row B3) (mat W4) (row B4)
      (mat W5) (row B5) fun k => X (ix2 p k)) :
    V = batch X W0 B0 W1 B1 W2 B2 W3 B3 W4 B4 W5 B5 :=
  funext fun i => (congrArg V (eq_ix2 i)).trans (h (i 0) (i 1))

/-- The batch array of a block of rows, at an entry, is the batch array of the whole array at the entry of the same row:
    the network looks at no other row. -/
theorem batch_of_row {R R' : ℕ} (x : (⟨2, ![R, 3]⟩ : Shape).Idx → EReal) (X : (⟨2, ![R', 3]⟩ : Shape).Idx → EReal)
    (W0 : (⟨2, ![3, 64]⟩ : Shape).Idx → EReal) (B0 : (⟨2, ![1, 64]⟩ : Shape).Idx → EReal)
    (W1 : (⟨2, ![64, 128]⟩ : Shape).Idx → EReal) (B1 : (⟨2, ![1, 128]⟩ : Shape).Idx → EReal)
    (W2 : (⟨2, ![128, 256]⟩ : Shape).Idx → EReal) (B2 : (⟨2, ![1, 256]⟩ : Shape).Idx → EReal)
    (W3 : (⟨2, ![256, 512]⟩ : Shape).Idx → EReal) (B3 : (⟨2, ![1, 512]⟩ : Shape).Idx → EReal)
    (W4 : (⟨2, ![512, 1024]⟩ : Shape).Idx → EReal) (B4 : (⟨2, ![1, 1024]⟩ : Shape).Idx → EReal)
    (W5 : (⟨2, ![1024, 1]⟩ : Shape).Idx → EReal) (B5 : (⟨2, ![1, 1]⟩ : Shape).Idx → EReal)
    (j : (⟨2, ![R, 1]⟩ : Shape).Idx) (i : (⟨2, ![R', 1]⟩ : Shape).Idx)
    (hrow : ∀ k : Fin 3, x (ix2 (j 0) k) = X (ix2 (i 0) k)) :
    batch x W0 B0 W1 B1 W2 B2 W3 B3 W4 B4 W5 B5 j = batch X W0 B0 W1 B1 W2 B2 W3 B3 W4 B4 W5 B5 i := by
  have hj : (j 1).val < 1 := (j 1).isLt
  have hi : (i 1).val < 1 := (i 1).isLt
  have hcol : (j 1 : Fin 1) = (i 1 : Fin 1) := Fin.ext (by omega)
  unfold batch
  rw [hcol, show (fun k => x (ix2 (j 0) k)) = fun k => X (ix2 (i 0) k) from funext hrow]

end Cert.RowNet

end
-- ==== Proof.KernelRows.lean ====
/-
  The kernel's body on one block of 1024 rows: the value it stores is, row by row, the network of the block's rows,
  with the weight matrices and bias rows the body loads.
-/
import proofs.«170963_j70789650973458_1_alg».proof.Proof.Gen.KernelIdeal.Skeleton
import proofs.«170963_j70789650973458_1_alg».proof.Proof.RowNet

noncomputable section

namespace Cert.KernelIdeal.Hand

open Cert.KernelIdeal Cert.KernelIdeal.Gen Idealize.ShloMosaic Idealize.ShloMosaic.ValueIdx
open Idealize.ShloMosaic.RowWise Idealize.ShloMosaic.DenseRows Cert.RowNet

/-! Each matrix unit of the body multiplies rows of its left operand into columns of its right one. -/

theorem plain0 : PlainDot.IsPlain dot_S1024x3_S3x64_S1024x64_1_0_0_1_n_n := ⟨rfl, rfl, rfl, rfl, rfl, rfl⟩
theorem plain1 : PlainDot.IsPlain dot_S1024x64_S64x128_S1024x128_1_0_0_1_n_n := ⟨rfl, rfl, rfl, rfl, rfl, rfl⟩
theorem plain2 : PlainDot.IsPlain dot_S1024x128_S128x256_S1024x256_1_0_0_1_n_n := ⟨rfl, rfl, rfl, rfl, rfl, rfl⟩
theorem plain3 : PlainDot.IsPlain dot_S1024x256_S256x512_S1024x512_1_0_0_1_n_n := ⟨rfl, rfl, rfl, rfl, rfl, rfl⟩
theorem plain4 : PlainDot.IsPlain dot_S1024x512_S512x1024_S1024x1024_1_0_0_1_n_n := ⟨rfl, rfl, rfl, rfl, rfl, rfl⟩
theorem plain5 : PlainDot.IsPlain dot_S1024x1024_S1024x1_S1024x1_1_0_0_1_n_n := ⟨rfl, rfl, rfl, rfl, rfl, rfl⟩

/-- The first four hidden layers of the block: row p of the body's intermediate value is the four layers of row p. -/
theorem front_rows (x0 : Vec Ideal S1024x3 .f32) (x1 : Vec Ideal S3x64 .bf16) (x2 : Vec Ideal S1x64 .f32)
    (x3 : Vec Ideal S64x128 .bf16) (x4 : Vec Ideal S1x128 .f32) (x5 : Vec Ideal S128x256 .bf16) (x6 : Vec Ideal S1x256 .f32)
    (x7 : Vec Ideal S256x512 .bf16) (x8 : Vec Ideal S1x512 .f32) :
    Rows (k0_pay2 (F := Ideal) x0 x1 x2 x3 x4 x5 x6 x7 x8) fun p =>
      sinDense (mat x7) (row x8) (sinDense (mat x5) (row x6) (sinDense (mat x3) (row x4) (sinDense (mat x1) (row x2)
        fun k => x0 (ix2 p k)))) := by
  unfold k0_pay2
  exact rows_kernelHidden plain3 _ x7 x8 _ _ _ (rows_kernelHidden plain2 _ x5 x6 _ _ _
    (rows_kernelHidden plain1 _ x3 x4 _ _ _ (rows_kernelHidden plain0 _ x1 x2 _ _ _
      (rows_truncf bitsLt_bf16_f32 (rows_self x0)))))

/-- The value the body stores: row p of it is the whole network of row p of the block. -/
theorem stored_rows (x0 : Vec Ideal S1024x3 .f32) (x1 : Vec Ideal S3x64 .bf16) (x2 : Vec Ideal S1x64 .f32)
    (x3 : Vec Ideal S64x128 .bf16) (x4 : Vec Ideal S1x128 .f32) (x5 : Vec Ideal S128x256 .bf16) (x6 : Vec Ideal S1x256 .f32)
    (x7 : Vec Ideal S256x512 .bf16) (x8 : Vec Ideal S1x512 .f32) (x9 : Vec Ideal S512x1024 .bf16) (x10 : Vec Ideal S1x1024 .f32)
    (x11 : Vec Ideal S1024x1 .bf16) (x12 : Vec Ideal S1x1 .f32) :
    Rows (k0_pay1 (F := Ideal) (k0_pay2 x0 x1 x2 x3 x4 x5 x6 x7 x8) x9 x10 x11 x12) fun p =>
      net (mat x1) (row x2) (mat x3) (row x4) (mat x5) (row x6) (mat x7) (row x8) (mat x9) (row x10) (mat x11) (row x12)
        fun k => x0 (ix2 p k) := by
  unfold k0_pay1
  exact rows_kernelDense plain5 _ x11 x12 _ _ (rows_kernelHidden plain4 _ x9 x10 _ _ _
    (front_rows x0 x1 x2 x3 x4 x5 x6 x7 x8))

/-- So the value the body stores is the batch array of the block, with the loaded weights. -/
theorem stored_eq (x0 : Vec Ideal S1024x3 .f32) (x1 : Vec Ideal S3x64 .bf16) (x2 : Vec Ideal S1x64 .f32)
    (x3 : Vec Ideal S64x128 .bf16) (x4 : Vec Ideal S1x128 .f32) (x5 : Vec Ideal S128x256 .bf16) (x6 : Vec Ideal S1x256 .f32)
    (x7 : Vec Ideal S256x512 .bf16) (x8 : Vec Ideal S1x512 .f32) (x9 : Vec Ideal S512x1024 .bf16) (x10 : Vec Ideal S1x1024 .f32)
    (x11 : Vec Ideal S1024x1 .bf16) (x12 : Vec Ideal S1x1 .f32) :
    k0_pay1 (F := Ideal) (k0_pay2 x0 x1 x2 x3 x4 x5 x6 x7 x8) x9 x10 x11 x12 = batch x0 x1 x2 x3 x4 x5 x6 x7 x8 x9 x10 x11 x12 :=
  eq_batch_of_rows (stored_rows x0 x1 x2 x3 x4 x5 x6 x7 x8 x9 x10 x11 x12)

/-- The stored value at an entry of the block, when the block's row is a row of an array X and the loaded weights are
    the arrays W, B: the batch array of X at the entry of that row. -/
theorem stored_at (x0 : Vec Ideal S1024x3 .f32) (x1 : Vec Ideal S3x64 .bf16) (x2 : Vec Ideal S1x64 .f32)
    (x3 : Vec Ideal S64x128 .bf16) (x4 : Vec Ideal S1x128 .f32) (x5 : Vec Ideal S128x256 .bf16) (x6 : Vec Ideal S1x256 .f32)
    (x7 : Vec Ideal S256x512 .bf16) (x8 : Vec Ideal S1x512 .f32) (x9 : Vec Ideal S512x1024 .bf16) (x10 : Vec Ideal S1x1024 .f32)
    (x11 : Vec Ideal S1024x1 .bf16) (x12 : Vec Ideal S1x1 .f32)
    (X : S131072x3.Idx → EReal) (W0 : S3x64.Idx → EReal) (B0 : S1x64.Idx → EReal) (W1 : S64x128.Idx → EReal)
    (B1 : S1x128.Idx → EReal) (W2 : S128x256.Idx → EReal) (B2 : S1x256.Idx → EReal) (W3 : S256x512.Idx → EReal)
    (B3 : S1x512.Idx → EReal) (W4 : S512x1024.Idx → EReal) (B4 : S1x1024.Idx → EReal) (W5 : S1024x1.Idx → EReal)
    (B5 : S1x1.Idx → EReal) (j : S1024x1.Idx) (i : S131072x1.Idx)
    (hrow : ∀ k : Fin 3, x0 (ix2 (j 0) k) = X (ix2 (i 0) k))
    (h1 : x1 = W0) (h2 : x2 = B0) (h3 : x3 = W1) (h4 : x4 = B1) (h5 : x5 = W2) (h6 : x6 = B2) (h7 : x7 = W3)
    (h8 : x8 = B3) (h9 : x9 = W4) (h10 : x10 = B4) (h11 : x11 = W5) (h12 : x12 = B5) :
    k0_pay1 (F := Ideal) (k0_pay2 x0 x1 x2 x3 x4 x5 x6 x7 x8) x9 x10 x11 x12 j
      = batch X W0 B0 W1 B1 W2 B2 W3 B3 W4 B4 W5 B5 i := by
  subst h1 h2 h3 h4 h5 h6 h7 h8 h9 h10 h11 h12
  rw [stored_eq]
  exact batch_of_row x0 X x1 x2 x3 x4 x5 x6 x7 x8 x9 x10 x11 x12 j i hrow

end Cert.KernelIdeal.Hand

end
-- ==== Proof.KernelValue.lean ====
/-
  The kernel's result array as one function of its arguments. The grid has 128 points; point t stages rows
  1024 t … 1024 t + 1023 of the [131072, 3] input and the whole of every weight matrix and bias row (the three masked
  weight matrices as @main has multiplied them with their masks, every matrix narrowed — the identity on the extended
  reals), and writes back rows 1024 t … 1024 t + 1023 of the [131072, 1] result. The body treats the rows of its block
  independently, so what point t writes back is the batch array of the whole input read at those rows; the 128 blocks
  tile the result, which therefore ends holding the batch array.
-/
import proofs.«170963_j70789650973458_1_alg».proof.Proof.Gen.KernelIdeal.Frame
import proofs.«170963_j70789650973458_1_alg».proof.Proof.Gen.KernelIdeal.Value
import proofs.«170963_j70789650973458_1_alg».proof.Proof.KernelRows
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value Idealize.ShloMosaic.ValueIdx Idealize.ShloMosaic.StableHlo
open Cert.RowNet

/-! ## The masks, as @main builds them -/

section Masks

variable {F : FTy → Type} [FloatOps F]

/-- The mask of the layer 128 → 256: the Kronecker product of the 2 × 2 identity matrix (a row count compared with a
    column count, as a float) with a 64 × 128 block of ones, viewed as [128, 256] — ones on the two diagonal blocks, zeros
    elsewhere. It is never opened below: the reference builds it by the same operations. -/
def mask2 : FVec F S128x256 .f32 :=
  shapeCast S128x256 (mulf
    (broadcastInDim S2x64x2x128 ![0, 1, 2, 3] bcast_S2x1x2x1_S2x64x2x128_0_1_2_3
      (broadcastInDim S2x1x2x1 ![0, 2] bcast_S2x2_S2x1x2x1_0_2
        (uitofp .f32 (cmpi .eq (addi (iotaInDim S2x2 32 0) (broadcastInDim S2x2 ![] bcast_S_S2x2 (constantI S_ 32 0#32)))
          (iotaInDim S2x2 32 1)))))
    (broadcastInDim S2x64x2x128 ![0, 1, 2, 3] bcast_S1x64x1x128_S2x64x2x128_0_1_2_3
      (broadcastInDim S1x64x1x128 ![1, 3] bcast_S64x128_S1x64x1x128_1_3
        (broadcastInDim S64x128 ![] bcast_S_S64x128 (constant S_ .f32 0x3F800000#32)))))
    shapeCasts_S2x64x2x128_S128x256

/-- The mask of the layer 256 → 512: the same with the 4 × 4 identity matrix. -/
def mask3 : FVec F S256x512 .f32 :=
  shapeCast S256x512 (mulf
    (broadcastInDim S4x64x4x128 ![0, 1, 2, 3] bcast_S4x1x4x1_S4x64x4x128_0_1_2_3
      (broadcastInDim S4x1x4x1 ![0, 2] bcast_S4x4_S4x1x4x1_0_2
        (uitofp .f32 (cmpi .eq (addi (iotaInDim S4x4 32 0) (broadcastInDim S4x4 ![] bcast_S_S4x4 (constantI S_ 32 0#32)))
          (iotaInDim S4x4 32 1)))))
    (broadcastInDim S4x64x4x128 ![0, 1, 2, 3] bcast_S1x64x1x128_S4x64x4x128_0_1_2_3
      (broadcastInDim S1x64x1x128 ![1, 3] bcast_S64x128_S1x64x1x128_1_3
        (broadcastInDim S64x128 ![] bcast_S_S64x128 (constant S_ .f32 0x3F800000#32)))))
    shapeCasts_S4x64x4x128_S256x512

/-- The mask of the layer 512 → 1024: the same with the 8 × 8 identity matrix. -/
def mask4 : FVec F S512x1024 .f32 :=
  shapeCast S512x1024 (mulf
    (broadcastInDim S8x64x8x128 ![0, 1, 2, 3] bcast_S8x1x8x1_S8x64x8x128_0_1_2_3
      (broadcastInDim S8x1x8x1 ![0, 2] bcast_S8x8_S8x1x8x1_0_2
        (uitofp .f32 (cmpi .eq (addi (iotaInDim S8x8 32 0) (broadcastInDim S8x8 ![] bcast_S_S8x8 (constantI S_ 32 0#32)))
          (iotaInDim S8x8 32 1)))))
    (broadcastInDim S8x64x8x128 ![0, 1, 2, 3] bcast_S1x64x1x128_S8x64x8x128_0_1_2_3
      (broadcastInDim S1x64x1x128 ![1, 3] bcast_S64x128_S1x64x1x128_1_3
        (broadcastInDim S64x128 ![] bcast_S_S64x128 (constant S_ .f32 0x3F800000#32)))))
    shapeCasts_S8x64x8x128_S512x1024

end Masks

variable (m : (ℓ : Loc nD τ sig) → Buf (Elt Ideal) ℓ) (ρ : Dev nD → PrngReg)

/-! ## What the region finds in the arrays @main computes before it -/

/-- The narrowed first weight matrix is the first weight matrix. -/
theorem V_v24 (c : Dev nD) : V m c main_v24 = m ((c : Thread nD τ).loc main_arg1) := by
  dsimp only [V]
  simp only [hostOps0, hostOps0_1, hostOps0_2, hostOps0_3, hostOps0_4, hostOps0_5, hostOps0_6, List.flatten_cons,
    List.flatten_nil, List.append_nil, List.cons_append, List.nil_append]
  after_results_simp <;> rfl

/-- The narrowed second weight matrix is the second weight matrix. -/
theorem V_v25 (c : Dev nD) : V m c main_v25 = m ((c : Thread nD τ).loc main_arg3) := by
  dsimp only [V]
  simp only [hostOps0, hostOps0_1, hostOps0_2, hostOps0_3, hostOps0_4, hostOps0_5, hostOps0_6, List.flatten_cons,
    List.flatten_nil, List.append_nil, List.cons_append, List.nil_append]
  after_results_simp <;> rfl

/-- The third weight matrix as staged: multiplied entry by entry with its mask. -/
theorem V_v27 (c : Dev nD) : V m c main_v27 = mulf (F := Ideal) (m ((c : Thread nD τ).loc main_arg5)) mask2 := by
  dsimp only [V]
  simp only [hostOps0, hostOps0_1, hostOps0_2, hostOps0_3, hostOps0_4, hostOps0_5, hostOps0_6, List.flatten_cons,
    List.flatten_nil, List.append_nil, List.cons_append, List.nil_append]
  after_results_simp <;> rfl

/-- The fourth weight matrix as staged: multiplied entry by entry with its mask. -/
theorem V_v29 (c : Dev nD) : V m c main_v29 = mulf (F := Ideal) (m ((c : Thread nD τ).loc main_arg7)) mask3 := by
  dsimp only [V]
  simp only [hostOps0, hostOps0_1, hostOps0_2, hostOps0_3, hostOps0_4, hostOps0_5, hostOps0_6, List.flatten_cons,
    List.flatten_nil, List.append_nil, List.cons_append, List.nil_append]
  after_results_simp <;> rfl

/-- The fifth weight matrix as staged: multiplied entry by entry with its mask. -/
theorem V_v31 (c : Dev nD) : V m c main_v31 = mulf (F := Ideal) (m ((c : Thread nD τ).loc main_arg9)) mask4 := by
  dsimp only [V]
  simp only [hostOps0, hostOps0_1, hostOps0_2, hostOps0_3, hostOps0_4, hostOps0_5, hostOps0_6, List.flatten_cons,
    List.flatten_nil, List.append_nil, List.cons_append, List.nil_append]
  after_results_simp <;> rfl

/-- The narrowed last weight matrix is the last weight matrix. -/
theorem V_v32 (c : Dev nD) : V m c main_v32 = m ((c : Thread nD τ).loc main_arg11) := by
  dsimp only [V]
  simp only [hostOps0, hostOps0_1, hostOps0_2, hostOps0_3, hostOps0_4, hostOps0_5, hostOps0_6, List.flatten_cons,
    List.flatten_nil, List.append_nil, List.cons_append, List.nil_append]
  after_results_simp <;> rfl

/-! ## The blocks of the weights and biases: each is its whole array -/

/-- Offsets that are a zero block index times the block's size are zero. -/
theorem off_zero {idx sz : Fin 2 → Nat} (h0 : idx 0 = 0) (h1 : idx 1 = 0) : (fun a => idx a * sz a) = fun _ => 0 :=
  funext fun a => by fin_cases a <;> simp [h0, h1]

/-- At zero offsets a block of the array's own sizes lies inside the array. -/
theorem inb_zero {off sz : Fin 2 → Nat} (h : off = fun _ => 0) : ∀ a, off a + sz a ≤ sz a := fun a => by
  rw [congrFun h a]; simp

/-! The index maps of windows 1 to 12 send every grid point to block (0, 0) (decided over the 128 points). -/

theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)

/-! So each of those windows' blocks, at every point, is the whole array the window stages. -/

theorem blk1 (c : Dev nD) (t : Fin cfg0.N) : iblk m c 1 t = V m c main_v24 :=
  Memref.read_access_unit_zero (Elt Ideal) main_v24 (off_zero (sz := main_v24.ty.shape.size) (idx1 t).1 (idx1 t).2)
    (inb_zero (off_zero (idx1 t).1 (idx1 t).2)) (V m c main_v24)
theorem blk2 (c : Dev nD) (t : Fin cfg0.N) : iblk m c 2 t = V m c main_arg2 :=
  Memref.read_access_unit_zero (Elt Ideal) main_arg2 (off_zero (sz := main_arg2.ty.shape.size) (idx2 t).1 (idx2 t).2)
    (inb_zero (off_zero (idx2 t).1 (idx2 t).2)) (V m c main_arg2)
theorem blk3 (c : Dev nD) (t : Fin cfg0.N) : iblk m c 3 t = V m c main_v25 :=
  Memref.read_access_unit_zero (Elt Ideal) main_v25 (off_zero (sz := main_v25.ty.shape.size) (idx3 t).1 (idx3 t).2)
    (inb_zero (off_zero (idx3 t).1 (idx3 t).2)) (V m c main_v25)
theorem blk4 (c : Dev nD) (t : Fin cfg0.N) : iblk m c 4 t = V m c main_arg4 :=
  Memref.read_access_unit_zero (Elt Ideal) main_arg4 (off_zero (sz := main_arg4.ty.shape.size) (idx4 t).1 (idx4 t).2)
    (inb_zero (off_zero (idx4 t).1 (idx4 t).2)) (V m c main_arg4)
theorem blk5 (c : Dev nD) (t : Fin cfg0.N) : iblk m c 5 t = V m c main_v27 :=
  Memref.read_access_unit_zero (Elt Ideal) main_v27 (off_zero (sz := main_v27.ty.shape.size) (idx5 t).1 (idx5 t).2)
    (inb_zero (off_zero (idx5 t).1 (idx5 t).2)) (V m c main_v27)
theorem blk6 (c : Dev nD) (t : Fin cfg0.N) : iblk m c 6 t = V m c main_arg6 :=
  Memref.read_access_unit_zero (Elt Ideal) main_arg6 (off_zero (sz := main_arg6.ty.shape.size) (idx6 t).1 (idx6 t).2)
    (inb_zero (off_zero (idx6 t).1 (idx6 t).2)) (V m c main_arg6)
theorem blk7 (c : Dev nD) (t : Fin cfg0.N) : iblk m c 7 t = V m c main_v29 :=
  Memref.read_access_unit_zero (Elt Ideal) main_v29 (off_zero (sz := main_v29.ty.shape.size) (idx7 t).1 (idx7 t).2)
    (inb_zero (off_zero (idx7 t).1 (idx7 t).2)) (V m c main_v29)
theorem blk8 (c : Dev nD) (t : Fin cfg0.N) : iblk m c 8 t = V m c main_arg8 :=
  Memref.read_access_unit_zero (Elt Ideal) main_arg8 (off_zero (sz := main_arg8.ty.shape.size) (idx8 t).1 (idx8 t).2)
    (inb_zero (off_zero (idx8 t).1 (idx8 t).2)) (V m c main_arg8)
theorem blk9 (c : Dev nD) (t : Fin cfg0.N) : iblk m c 9 t = V m c main_v31 :=
  Memref.read_access_unit_zero (Elt Ideal) main_v31 (off_zero (sz := main_v31.ty.shape.size) (idx9 t).1 (idx9 t).2)
    (inb_zero (off_zero (idx9 t).1 (idx9 t).2)) (V m c main_v31)
theorem blk10 (c : Dev nD) (t : Fin cfg0.N) : iblk m c 10 t = V m c main_arg10 :=
  Memref.read_access_unit_zero (Elt Ideal) main_arg10 (off_zero (sz := main_arg10.ty.shape.size) (idx10 t).1 (idx10 t).2)
    (inb_zero (off_zero (idx10 t).1 (idx10 t).2)) (V m c main_arg10)
theorem blk11 (c : Dev nD) (t : Fin cfg0.N) : iblk m c 11 t = V m c main_v32 :=
  Memref.read_access_unit_zero (Elt Ideal) main_v32 (off_zero (sz := main_v32.ty.shape.size) (idx11 t).1 (idx11 t).2)
    (inb_zero (off_zero (idx11 t).1 (idx11 t).2)) (V m c main_v32)
theorem blk12 (c : Dev nD) (t : Fin cfg0.N) : iblk m c 12 t = V m c main_arg12 :=
  Memref.read_access_unit_zero (Elt Ideal) main_arg12 (off_zero (sz := main_arg12.ty.shape.size) (idx12 t).1 (idx12 t).2)
    (inb_zero (off_zero (idx12 t).1 (idx12 t).2)) (V m c main_arg12)

/-! ## The input's and the result's blocks move together down the rows -/

/-- Point t's block of the input and of the result is block (t, 0) (decided over the 128 points). -/
theorem idx_rows : ∀ t : Fin cfg0.N, win0_0.index t (0 : Fin 2) = t.val ∧ win0_0.index t (1 : Fin 2) = 0
    ∧ win0_13.index t (0 : Fin 2) = t.val ∧ win0_13.index t (1 : Fin 2) = 0 :=
  (by decide +kernel : ∀ t : Fin grid0.N, _)

theorem hz : (![0, 0] : Fin 2 → Nat) = fun _ => 0 := funext fun a => by fin_cases a <;> rfl

/-- The result: the batch array of the input, with the weights and biases as given and the three masked weight
    matrices multiplied entry by entry with their masks. -/
abbrev result (c : Dev nD) : Buf (Elt Ideal) ((c : Thread nD τ).loc main_v33) :=
  batch (m ((c : Thread nD τ).loc main_arg0)) (m ((c : Thread nD τ).loc main_arg1)) (m ((c : Thread nD τ).loc main_arg2))
    (m ((c : Thread nD τ).loc main_arg3)) (m ((c : Thread nD τ).loc main_arg4))
    (mulf (F := Ideal) (m ((c : Thread nD τ).loc main_arg5)) mask2) (m ((c : Thread nD τ).loc main_arg6))
    (mulf (F := Ideal) (m ((c : Thread nD τ).loc main_arg7)) mask3) (m ((c : Thread nD τ).loc main_arg8))
    (mulf (F := Ideal) (m ((c : Thread nD τ).loc main_arg9)) mask4) (m ((c : Thread nD τ).loc main_arg10))
    (m ((c : Thread nD τ).loc main_arg11)) (m ((c : Thread nD τ).loc main_arg12))

/-- What point t writes back is block t of the result: entry (p, 0) of the stored value is the network of row p of the
    input's block, which is row 1024 t + p of the input, the row of the result's entry. -/
theorem flushed_eq (c : Dev nD) (t : Fin cfg0.N) :
    (dats m 0 c).flushed 13 t = ((cfg0.win 13).blk t).view.read (Elt Ideal) (result m c) := by
  rw [Value.flushed13]
  unfold out0_13
  rw [View.canon_unit_zero hz]
  simp only [View.ld_unit_zero (S := S1024x3) hz, View.ld_unit_zero (S := S3x64) hz, View.ld_unit_zero (S := S1x64) hz,
    View.ld_unit_zero (S := S64x128) hz, View.ld_unit_zero (S := S1x128) hz, View.ld_unit_zero (S := S128x256) hz,
    View.ld_unit_zero (S := S1x256) hz, View.ld_unit_zero (S := S256x512) hz, View.ld_unit_zero (S := S1x512) hz,
    View.ld_unit_zero (S := S512x1024) hz, View.ld_unit_zero (S := S1x1024) hz, View.ld_unit_zero (S := S1024x1) hz,
    View.ld_unit_zero (S := S1x1) hz]
  obtain ⟨e0, e1, e2, e3⟩ := idx_rows t
  funext j
  refine stored_at (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t)
    (m ((c : Thread nD τ).loc main_arg0)) (m ((c : Thread nD τ).loc main_arg1)) (m ((c : Thread nD τ).loc main_arg2))
    (m ((c : Thread nD τ).loc main_arg3)) (m ((c : Thread nD τ).loc main_arg4))
    (mulf (F := Ideal) (m ((c : Thread nD τ).loc main_arg5)) mask2) (m ((c : Thread nD τ).loc main_arg6))
    (mulf (F := Ideal) (m ((c : Thread nD τ).loc main_arg7)) mask3) (m ((c : Thread nD τ).loc main_arg8))
    (mulf (F := Ideal) (m ((c : Thread nD τ).loc main_arg9)) mask4) (m ((c : Thread nD τ).loc main_arg10))
    (m ((c : Thread nD τ).loc main_arg11)) (m ((c : Thread nD τ).loc main_arg12))
    j (((cfg0.win 13).blk t).view.emb j) (fun k => ?_)
    ((blk1 m c t).trans (V_v24 m c)) ((blk2 m c t).trans (V_main_arg2 m c)) ((blk3 m c t).trans (V_v25 m c))
    ((blk4 m c t).trans (V_main_arg4 m c)) ((blk5 m c t).trans (V_v27 m c)) ((blk6 m c t).trans (V_main_arg6 m c))
    ((blk7 m c t).trans (V_v29 m c)) ((blk8 m c t).trans (V_main_arg8 m c)) ((blk9 m c t).trans (V_v31 m c))
    ((blk10 m c t).trans (V_main_arg10 m c)) ((blk11 m c t).trans (V_v32 m c)) ((blk12 m c t).trans (V_main_arg12 m c))
  show V m c main_arg0 (((cfg0.win 0).blk t).view.emb (ix2 (j 0) k))
    = m ((c : Thread nD τ).loc main_arg0) (ix2 ((((cfg0.win 13).blk t).view.emb j) 0) k)
  rw [V_main_arg0]
  refine congrArg _ ?_
  funext a
  apply Fin.ext
  match a with
  | ⟨0, _⟩ =>
    show win0_0.index t (0 : Fin 2) * 1024 + 1 * (j 0).val = win0_13.index t (0 : Fin 2) * 1024 + 1 * (j 0).val
    rw [e0, e2]
  | ⟨1, _⟩ =>
    show win0_0.index t (1 : Fin 2) * 3 + 1 * k.val = k.val
    rw [e1]; omega

/-! ## The 128 blocks tile the result -/

/-- An entry of the result is in point t's block iff each of its coordinates is in the block's range on its axis. -/
theorem mem_blk (t : Fin cfg0.N) (i : S131072x1.Idx) :
    i ∈ ((cfg0.win 13).blk t).view.set ↔ ∀ a : Fin 2, win0_13.index t a * S1024x1.size a ≤ (i a).val
      ∧ (i a).val < win0_13.index t a * S1024x1.size a + S1024x1.size a := by
  show i ∈ ((View.whole main_v33).slice (win0_13.rect t)).set ↔ _
  rw [View.set_slice_whole, Rect.mem_set_unit]
  exact Iff.rfl

/-- Row r of the result is written back by point r / 1024. -/
theorem covered (i : S131072x1.Idx) :
    ∃ t : Fin cfg0.N, (cfg0.win 13).flush t = true ∧ i ∈ ((cfg0.win 13).blk t).view.set := by
  have hi0 : (i 0).val < 131072 := (i 0).isLt
  have hi1 : (i 1).val < 1 := (i 1).isLt
  have hN : cfg0.N = 128 := N_0
  have ht : (i 0).val / 1024 < cfg0.N := by rw [hN]; omega
  obtain ⟨-, -, e2, e3⟩ := idx_rows ⟨(i 0).val / 1024, ht⟩
  refine ⟨⟨(i 0).val / 1024, ht⟩, flush0_13 _, ?_⟩
  rw [mem_blk]
  intro a
  match a with
  | ⟨0, _⟩ =>
    show win0_13.index ⟨(i 0).val / 1024, ht⟩ (0 : Fin 2) * 1024 ≤ (i 0).val
      ∧ (i 0).val < win0_13.index ⟨(i 0).val / 1024, ht⟩ (0 : Fin 2) * 1024 + 1024
    rw [e2]
    show (i 0).val / 1024 * 1024 ≤ (i 0).val ∧ (i 0).val < (i 0).val / 1024 * 1024 + 1024
    omega
  | ⟨1, _⟩ =>
    show win0_13.index ⟨(i 0).val / 1024, ht⟩ (1 : Fin 2) * 1 ≤ (i 1).val
      ∧ (i 1).val < win0_13.index ⟨(i 0).val / 1024, ht⟩ (1 : Fin 2) * 1 + 1
    rw [e3]
    omega

/-- So the result array ends holding the batch array. -/
theorem final (c : Dev nD) : (dats m 0 c).arrAt 13 cfg0.N = result m c :=
  (dats m 0 c).arrAt_eq_of_cover 13 (result m c) (fun t _ => flushed_eq m c t) covered

/-- The kernel's run, read: the result array at the batch array of the arguments, the arguments unchanged. -/
theorem run : θ_run defs (onTc (τ := τ) (main (F := Ideal))) ⟨m, fun _ => 0, ρ⟩ fun r => ∀ c : Dev nD,
      r.2.mem ((c : Thread nD τ).loc main_v33) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun _ h c => ⟨(h c).1.trans (final m c), (h c).2⟩) (Value.run_blocks m ρ)

end Cert.KernelIdeal.Hand

end
-- ==== Proof.RefRows.lean ====
/-
  The reference on the whole batch: the array its operations compose is, row by row, the network of the rows of its
  first argument, with the weight matrices it is given — three of them multiplied entry by entry with a mask first.
-/
import proofs.«170963_j70789650973458_1_alg».proof.Proof.Gen.ReferenceIdeal
import proofs.«170963_j70789650973458_1_alg».proof.Proof.RowNet

noncomputable section

namespace Cert.ReferenceIdeal.Hand

open Cert.ReferenceIdeal Cert.ReferenceIdeal.Gen Idealize.ShloMosaic Idealize.ShloMosaic.ValueIdx
open Idealize.ShloMosaic.RowWise Idealize.ShloMosaic.DenseRows Cert.RowNet

/-! Each dot product of the reference multiplies rows of its left operand into columns of its right one. -/

theorem plain0 : PlainDot.IsPlain dot_S131072x3_S3x64_S131072x64_1_0_0_1_n_n := ⟨rfl, rfl, rfl, rfl, rfl, rfl⟩
theorem plain1 : PlainDot.IsPlain dot_S131072x64_S64x128_S131072x128_1_0_0_1_n_n := ⟨rfl, rfl, rfl, rfl, rfl, rfl⟩
theorem plain2 : PlainDot.IsPlain dot_S131072x128_S128x256_S131072x256_1_0_0_1_n_n := ⟨rfl, rfl, rfl, rfl, rfl, rfl⟩
theorem plain3 : PlainDot.IsPlain dot_S131072x256_S256x512_S131072x512_1_0_0_1_n_n := ⟨rfl, rfl, rfl, rfl, rfl, rfl⟩
theorem plain4 : PlainDot.IsPlain dot_S131072x512_S512x1024_S131072x1024_1_0_0_1_n_n := ⟨rfl, rfl, rfl, rfl, rfl, rfl⟩
theorem plain5 : PlainDot.IsPlain dot_S131072x1024_S1024x1_S131072x1_1_0_0_1_n_n := ⟨rfl, rfl, rfl, rfl, rfl, rfl⟩

/-- The reference's composed array is the batch array of its first argument: five hidden layers and the last dense
    layer, each a dot product with the layer's weights, the bias row repeated down the batch, and (but for the last) the
    sine. The masks M2, M3, M4 are whatever arrays the weights of layers 2, 3, 4 are multiplied with. -/
theorem composed_eq (a0 : FVec Ideal S131072x3 .f32) (a1 : FVec Ideal S3x64 .f32) (a2 : FVec Ideal S1x64 .f32)
    (a3 : FVec Ideal S64x128 .f32) (a4 : FVec Ideal S1x128 .f32) (a5 : FVec Ideal S128x256 .f32) (a6 : FVec Ideal S1x256 .f32)
    (a7 : FVec Ideal S256x512 .f32) (a8 : FVec Ideal S1x512 .f32) (a9 : FVec Ideal S512x1024 .f32) (a10 : FVec Ideal S1x1024 .f32)
    (a11 : FVec Ideal S1024x1 .f32) (a12 : FVec Ideal S1x1 .f32)
    (M2 : FVec Ideal S128x256 .f32) (M3 : FVec Ideal S256x512 .f32) (M4 : FVec Ideal S512x1024 .f32)
    (hb0 : S1x64.BroadcastsInDim S131072x64 ![0, 1]) (hb1 : S1x128.BroadcastsInDim S131072x128 ![0, 1])
    (hb2 : S1x256.BroadcastsInDim S131072x256 ![0, 1]) (hb3 : S1x512.BroadcastsInDim S131072x512 ![0, 1])
    (hb4 : S1x1024.BroadcastsInDim S131072x1024 ![0, 1]) (hb5 : S1x1.BroadcastsInDim S131072x1 ![0, 1]) :
    addf (Host.dotGeneral dot_S131072x1024_S1024x1_S131072x1_1_0_0_1_n_n none
      (Host.sin (addf (Host.dotGeneral dot_S131072x512_S512x1024_S131072x1024_1_0_0_1_n_n none
        (Host.sin (addf (Host.dotGeneral dot_S131072x256_S256x512_S131072x512_1_0_0_1_n_n none
          (Host.sin (addf (Host.dotGeneral dot_S131072x128_S128x256_S131072x256_1_0_0_1_n_n none
            (Host.sin (addf (Host.dotGeneral dot_S131072x64_S64x128_S131072x128_1_0_0_1_n_n none
              (Host.sin (addf (Host.dotGeneral dot_S131072x3_S3x64_S131072x64_1_0_0_1_n_n none a0 a1)
                (broadcastInDim S131072x64 ![0, 1] hb0 a2)))
              a3) (broadcastInDim S131072x128 ![0, 1] hb1 a4)))
            (mulf a5 M2)) (broadcastInDim S131072x256 ![0, 1] hb2 a6)))
          (mulf a7 M3)) (broadcastInDim S131072x512 ![0, 1] hb3 a8)))
        (mulf a9 M4)) (broadcastInDim S131072x1024 ![0, 1] hb4 a10)))
      a11) (broadcastInDim S131072x1 ![0, 1] hb5 a12)
    = batch a0 a1 a2 a3 a4 (mulf a5 M2) a6 (mulf a7 M3) a8 (mulf a9 M4) a10 a11 a12 :=
  eq_batch_of_rows (rows_hostDense plain5 _ a11 a12 hb5 (rows_hostHidden plain4 _ (mulf a9 M4) a10 hb4
    (rows_hostHidden plain3 _ (mulf a7 M3) a8 hb3 (rows_hostHidden plain2 _ (mulf a5 M2) a6 hb2
      (rows_hostHidden plain1 _ a3 a4 hb1 (rows_hostHidden plain0 a0 a1 a2 hb0 (rows_self a0)))))))

end Cert.ReferenceIdeal.Hand

end
-- ==== Proof.lean ====
/-
  A network of six dense layers — widths 3 → 64 → 128 → 256 → 512 → 1024 → 1, the sine after each of the first five,
  the weight matrices of layers 128 → 256, 256 → 512 and 512 → 1024 multiplied entry by entry with block-diagonal masks
  of ones — applied to each of the 131072 rows of the input independently.

  The kernel runs it block by block: 128 grid points, each on 1024 rows, with every weight matrix (masked where it is
  masked, narrowed — the identity on the extended reals) and bias row staged whole; a layer is the matrix unit into a
  zero accumulator, the bias row repeated down the block, the sine, the narrowing. The reference runs it on the whole
  batch: a layer is a dot product, the bias row repeated down the batch, the sine. On the extended reals both spellings
  of a layer send a row x to  q ↦ sin ((∑ k, x k · w k q) + b q)  (the last layer without the sine): a sum over the
  shared axis on both sides, in whatever order, so no finiteness of the inputs is used. The masks are built by the same
  operations in both programs and are never opened.

  Proof/RowNet.lean states the network on a row and reads each spelling of a layer row by row, whatever the number of
  rows; Proof/KernelRows.lean reads the kernel body's stored value on a block; Proof/KernelValue.lean carries it from
  the 128 blocks to the result array; Proof/RefRows.lean reads the reference's composed array. Here the claims are
  assembled: both result arrays are the same batch array of the arguments.
-/
import proofs.«170963_j70789650973458_1_alg».proof.Defs
import proofs.«170963_j70789650973458_1_alg».proof.Proof.Gen.Kernel
import proofs.«170963_j70789650973458_1_alg».proof.Proof.Gen.Kernel.Skeleton
import proofs.«170963_j70789650973458_1_alg».proof.Proof.Gen.Kernel.Launch
import proofs.«170963_j70789650973458_1_alg».proof.Proof.Gen.Kernel.Points
import proofs.«170963_j70789650973458_1_alg».proof.Proof.Gen.Kernel.Frame
import proofs.«170963_j70789650973458_1_alg».proof.Proof.Gen.KernelIdeal
import proofs.«170963_j70789650973458_1_alg».proof.Proof.Gen.KernelIdeal.Skeleton
import proofs.«170963_j70789650973458_1_alg».proof.Proof.Gen.KernelIdeal.Launch
import proofs.«170963_j70789650973458_1_alg».proof.Proof.Gen.KernelIdeal.Points
import proofs.«170963_j70789650973458_1_alg».proof.Proof.Gen.KernelIdeal.Frame
import proofs.«170963_j70789650973458_1_alg».proof.Proof.Gen.ReferenceIdeal
import proofs.«170963_j70789650973458_1_alg».proof.Proof.Gen.Pre_finite_inputs
import proofs.«170963_j70789650973458_1_alg».proof.Proof.Gen.KernelIdeal.Value
import proofs.«170963_j70789650973458_1_alg».proof.Proof.Gen.ReferenceIdeal.Run
import proofs.«170963_j70789650973458_1_alg».proof.Proof.KernelValue
import proofs.«170963_j70789650973458_1_alg».proof.Proof.RefRows
import Idealize.ShloMosaic.Adequacy
import Idealize.ShloMosaic.Init

noncomputable section

namespace Cert.Proof

open Idealize.ShloMosaic Idealize.SL.Sem

/-- The kernel as printed runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs and leaves its arguments as they were: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the batch array of the arguments in their result:
    the kernel block by block, the reference in one piece. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6, g7, g8, g9, g10, g11, g12⟩ := hagree c
  rw [g0, g1, g2, g3, g4, g5, g6, g7, g8, g9, g10, g11, g12]
  exact Cert.ReferenceIdeal.Hand.composed_eq _ _ _ _ _ _ _ _ _ _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
